-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x256x256 : Shape := ⟨4, ![16, 256, 256, 256]⟩
abbrev S256x64 : Shape := ⟨2, ![256, 64]⟩
abbrev S64x256 : Shape := ⟨2, ![64, 256]⟩
abbrev S256 : Shape := ⟨1, ![256]⟩
abbrev S_ : Shape := ⟨0, ![]⟩

class Facts : Prop where
  bcast_S_S16x256x256x256 : S_.BroadcastsInDim S16x256x256x256 (![] : Fin 0 → Fin S16x256x256x256.rank)
  reducesTo_S16x256x256x256_S_d0_1_2_3 : S16x256x256x256.ReducesTo [0, 1, 2, 3] S_
  h_S_ : 0 < S_.numel
  bcast_S_S256x64 : S_.BroadcastsInDim S256x64 (![] : Fin 0 → Fin S256x64.rank)
  reducesTo_S256x64_S_d0_1 : S256x64.ReducesTo [0, 1] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S16x256x256x256 .f32) (main_arg1 : FVec F S256x64 .f32) (main_arg2 : FVec F S64x256 .f32) (main_arg3 : FVec F S256 .f32) : IVec S_ 1 :=
  let main_v0 : FVec F S16x256x256x256 .f32 := Host.absf main_arg0
  let main_cst : FVec F S_ .f32 := constant S_ .f32 0x7F800000#32
  let main_v1 : FVec F S16x256x256x256 .f32 := broadcastInDim S16x256x256x256 ![] bcast_S_S16x256x256x256 main_cst
  let main_v2 : IVec S16x256x256x256 1 := cmpf .olt main_v0 main_v1
  let main_c : IVec S_ 1 := constantI S_ 1 1#1
  let main_v3 : IVec S_ 1 := (fun x v => Host.reduce IntOp.andi x v reducesTo_S16x256x256x256_S_d0_1_2_3 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64x256 .f32 := Host.absf main_arg2
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S16x256x256x256 : Shape := ⟨4, ![16, 256, 256, 256]⟩
abbrev S256x64 : Shape := ⟨2, ![256, 64]⟩
abbrev S64x256 : Shape := ⟨2, ![64, 256]⟩
abbrev S256 : Shape := ⟨1, ![256]⟩
abbrev S16x1x1x256 : Shape := ⟨4, ![16, 1, 1, 256]⟩
abbrev S1x32x256x256 : Shape := ⟨4, ![1, 32, 256, 256]⟩
abbrev S1x1x1x256 : Shape := ⟨4, ![1, 1, 1, 256]⟩
abbrev S1x256x256 : Shape := ⟨3, ![1, 256, 256]⟩
abbrev S1x256 : Shape := ⟨2, ![1, 256]⟩
abbrev S16x256 : Shape := ⟨2, ![16, 256]⟩
abbrev S_ : Shape := ⟨0, ![]⟩
abbrev S16x64 : Shape := ⟨2, ![16, 64]⟩
abbrev S1x16x256x256 : Shape := ⟨4, ![1, 16, 256, 256]⟩

abbrev nBuf : Space → Nat
  | .hbm => 37
  | .vmem => 11
  | .smem => 0
  | _ => 0

abbrev bufTy : (tb : Table) → Fin (tcTables nBuf tb) → BufTy
  | .hbm, ⟨0, _⟩ => ⟨S16x256x256x256, .f32⟩
  | .hbm, ⟨1, _⟩ => ⟨S256x64, .f32⟩
  | .hbm, ⟨2, _⟩ => ⟨S64x256, .f32⟩
  | .hbm, ⟨3, _⟩ => ⟨S256, .f32⟩
  | .hbm, ⟨4, _⟩ => ⟨S16x1x1x256, .f32⟩
  | .hbm, ⟨5, _⟩ => ⟨S16x256, .f32⟩
  | .hbm, ⟨6, _⟩ => ⟨S_, .f32⟩
  | .hbm, ⟨7, _⟩ => ⟨S16x256, .f32⟩
  | .hbm, ⟨8, _⟩ => ⟨S16x256, .f32⟩
  | .hbm, ⟨9, _⟩ => ⟨S16x64, .f32⟩
  | .hbm, ⟨10, _⟩ => ⟨S_, .f32⟩
  | .hbm, ⟨11, _⟩ => ⟨S16x64, .f32⟩
  | .hbm, ⟨12, _⟩ => ⟨S16x64, .i1⟩
  | .hbm, ⟨13, _⟩ => ⟨S_, .f32⟩
  | .hbm, ⟨14, _⟩ => ⟨S16x64, .f32⟩
  | .hbm, ⟨15, _⟩ => ⟨S16x64, .f32⟩
  | .hbm, ⟨16, _⟩ => ⟨S16x64, .f32⟩
  | .hbm, ⟨17, _⟩ => ⟨S16x256, .f32⟩
  | .hbm, ⟨18, _⟩ => ⟨S_, .f32⟩
  | .hbm, ⟨19, _⟩ => ⟨S256, .f32⟩
  | .hbm, ⟨20, _⟩ => ⟨S256, .f32⟩
  | .hbm, ⟨21, _⟩ => ⟨S_, .f32⟩
  | .hbm, ⟨22, _⟩ => ⟨S256, .f32⟩
  | .hbm, ⟨23, _⟩ => ⟨S256, .f32⟩
  | .hbm, ⟨24, _⟩ => ⟨S1x256, .f32⟩
  | .hbm, ⟨25, _⟩ => ⟨S16x256, .f32⟩
  | .hbm, ⟨26, _⟩ => ⟨S16x256, .f32⟩
  | .hbm, ⟨27, _⟩ => ⟨S16x256, .f32⟩
  | .hbm, ⟨28, _⟩ => ⟨S16x256, .f32⟩
  | .hbm, ⟨29, _⟩ => ⟨S_, .f32⟩
  | .hbm, ⟨30, _⟩ => ⟨S16x256, .f32⟩
  | .hbm, ⟨31, _⟩ => ⟨S16x256, .f32⟩
  | .hbm, ⟨32, _⟩ => ⟨S_, .f32⟩
  | .hbm, ⟨33, _⟩ => ⟨S16x256, .f32⟩
  | .hbm, ⟨34, _⟩ => ⟨S16x256, .f32⟩
  | .hbm, ⟨35, _⟩ => ⟨S16x1x1x256, .f32⟩
  | .hbm, ⟨36, _⟩ => ⟨S16x256x256x256, .f32⟩
  | .local _ .vmem, ⟨0, _⟩ => ⟨S1x32x256x256, .f32⟩
  | .local _ .vmem, ⟨1, _⟩ => ⟨S1x32x256x256, .f32⟩
  | .local _ .vmem, ⟨2, _⟩ => ⟨S1x1x1x256, .f32⟩
  | .local _ .vmem, ⟨3, _⟩ => ⟨S1x1x1x256, .f32⟩
  | .local _ .vmem, ⟨4, _⟩ => ⟨S1x1x1x256, .f32⟩
  | .local _ .vmem, ⟨5, _⟩ => ⟨S1x16x256x256, .f32⟩
  | .local _ .vmem, ⟨6, _⟩ => ⟨S1x16x256x256, .f32⟩
  | .local _ .vmem, ⟨7, _⟩ => ⟨S1x1x1x256, .f32⟩
  | .local _ .vmem, ⟨8, _⟩ => ⟨S1x1x1x256, .f32⟩
  | .local _ .vmem, ⟨9, _⟩ => ⟨S1x16x256x256, .f32⟩
  | .local _ .vmem, ⟨10, _⟩ => ⟨S1x16x256x256, .f32⟩
  | _, _ => ⟨S16x256x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_call1_cst : Ref sig .tc := ⟨.hbm, 21, rfl⟩
abbrev main_call1_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_13 : BitVec 32 := 0#32
  let v14 : BitVec 1 := Scalar.cmpi .ne v13 c0_i32_13
  v14

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![16, 16], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x16x256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x1x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x16x256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S1x1x1x256_S1x1x1x256_0_0_0_0 : ∀ a, (![0, 0, 0, 0] : Fin 4 → Nat) a + S1x1x1x256.size a ≤ S1x1x1x256.size a
  h_S1x1x1x256 : 0 < S1x1x1x256.numel
  shapeCasts_S1x1x1x256_S1x1x1x256 : S1x1x1x256.ShapeCasts S1x1x1x256
  inb_S1x32x256x256_S1x32x256x256_0_0_0_0 : ∀ a, (![0, 0, 0, 0] : Fin 4 → Nat) a + S1x32x256x256.size a ≤ S1x32x256x256.size a
  h_S1x32x256x256 : 0 < S1x32x256x256.numel
  reduces_S1x32x256x256_S1x256x256 : S1x32x256x256.Reduces [1] S1x256x256
  reduces_S1x256x256_S1x256 : S1x256x256.Reduces [1] S1x256
  shapeCasts_S1x256_S1x1x1x256 : S1x256.ShapeCasts S1x1x1x256
  shapeCasts_S16x1x1x256_S16x256 : S16x1x1x256.ShapeCasts S16x256
  bcast_S_S16x256 : S_.BroadcastsInDim S16x256 (![] : Fin 0 → Fin S16x256.rank)
  bcast_S_S16x64 : S_.BroadcastsInDim S16x64 (![] : Fin 0 → Fin S16x64.rank)
  bcast_S_S256 : S_.BroadcastsInDim S256 (![] : Fin 0 → Fin S256.rank)
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  shapeCasts_S16x256_S16x1x1x256 : S16x256.ShapeCasts S16x1x1x256
  inb_S1x16x256x256_S1x16x256x256_0_0_0_0 : ∀ a, (![0, 0, 0, 0] : Fin 4 → Nat) a + S1x16x256x256.size a ≤ S1x16x256x256.size a
  h_S1x16x256x256 : 0 < S1x16x256x256.numel
  broadcasts_S1x1x1x256_S1x16x256x256 : S1x1x1x256.Broadcasts S1x16x256x256
  dot_S16x256_S256x64_S16x64_1_0_0_1_n_n_wf : DotDims.WF S16x256 S256x64 S16x64 [1] [0] [0] [1] [] []
  dot_S16x64_S64x256_S16x256_1_0_0_1_n_n_wf : DotDims.WF S16x64 S64x256 S16x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x256x256.size a ≤ S16x256x256x256.size a
  hwx0_0 : ∀ i : grid0.Coords, EltTy.bits .f32 = 32 ∨ (Rect.block (s := S16x256x256x256) S1x32x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1x256.size a ≤ S16x1x1x256.size a
  hwx0_1 : ∀ i : grid0.Coords, EltTy.bits .f32 = 32 ∨ (Rect.block (s := S16x1x1x256) S1x1x1x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x256x256.size a ≤ S16x256x256x256.size a
  hwx1_0 : ∀ i : grid1.Coords, EltTy.bits .f32 = 32 ∨ (Rect.block (s := S16x256x256x256) S1x16x256x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x1x256.size a ≤ S16x1x1x256.size a
  hwx1_1 : ∀ i : grid1.Coords, EltTy.bits .f32 = 32 ∨ (Rect.block (s := S16x1x1x256) S1x1x1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x16x256x256.size a ≤ S16x256x256x256.size a
  hwx1_2 : ∀ i : grid1.Coords, EltTy.bits .f32 = 32 ∨ (Rect.block (s := S16x256x256x256) S1x16x256x256.size (cc1_transform_2 i) (hinb1_2 i)).WholeWords (EltTy.packing .f32)

variable [Facts₀]

def dot_S16x256_S256x64_S16x64_1_0_0_1_n_n : DotDims S16x256 S256x64 S16x64 where
  lhsContracting := [1]
  rhsContracting := [0]
  lhsNonContracting := [0]
  rhsNonContracting := [1]
  lhsBatch := []
  rhsBatch := []
  wf := dot_S16x256_S256x64_S16x64_1_0_0_1_n_n_wf
def dot_S16x64_S64x256_S16x256_1_0_0_1_n_n : DotDims S16x64 S64x256 S16x256 where
  lhsContracting := [1]
  rhsContracting := [0]
  lhsNonContracting := [0]
  rhsNonContracting := [1]
  lhsBatch := []
  rhsBatch := []
  wf := dot_S16x64_S64x256_S16x256_1_0_0_1_n_n_wf

abbrev win0_0 : Pipeline.Window sig grid0 :=
  Pipeline.Window.ofSpec (Memref.whole main_arg0) S1x32x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x1x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg0) S1x16x256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S1x1x1x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x16x256x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16x256x256x256 : Shape := ⟨4, ![16, 256, 256, 256]⟩
abbrev S256x64 : Shape := ⟨2, ![256, 64]⟩
abbrev S64x256 : Shape := ⟨2, ![64, 256]⟩
abbrev S256 : Shape := ⟨1, ![256]⟩
abbrev S_ : Shape := ⟨0, ![]⟩
abbrev S16x256 : Shape := ⟨2, ![16, 256]⟩
abbrev S16x64 : Shape := ⟨2, ![16, 64]⟩
abbrev S1x256 : Shape := ⟨2, ![1, 256]⟩
abbrev S16x1x1x256 : Shape := ⟨4, ![16, 1, 1, 256]⟩

abbrev nBuf : Space → Nat
  | .hbm => 38
  | .vmem => 0
  | .smem => 0
  | _ => 0

abbrev bufTy : (tb : Table) → Fin (tcTables nBuf tb) → BufTy
  | .hbm, ⟨0, _⟩ => ⟨S16x256x256x256, .f32⟩
  | .hbm, ⟨1, _⟩ => ⟨S256x64, .f32⟩
  | .hbm, ⟨2, _⟩ => ⟨S64x256, .f32⟩
  | .hbm, ⟨3, _⟩ => ⟨S256, .f32⟩
  | .hbm, ⟨4, _⟩ => ⟨S_, .f32⟩
  | .hbm, ⟨5, _⟩ => ⟨S16x256, .f32⟩
  | .hbm, ⟨6, _⟩ => ⟨S_, .f32⟩
  | .hbm, ⟨7, _⟩ => ⟨S16x256, .f32⟩
  | .hbm, ⟨8, _⟩ => ⟨S16x256, .f32⟩
  | .hbm, ⟨9, _⟩ => ⟨S16x64, .f32⟩
  | .hbm, ⟨10, _⟩ => ⟨S_, .f32⟩
  | .hbm, ⟨11, _⟩ => ⟨S16x64, .f32⟩
  | .hbm, ⟨12, _⟩ => ⟨S16x64, .i1⟩
  | .hbm, ⟨13, _⟩ => ⟨S_, .f32⟩
  | .hbm, ⟨14, _⟩ => ⟨S16x64, .f32⟩
  | .hbm, ⟨15, _⟩ => ⟨S16x64, .f32⟩
  | .hbm, ⟨16, _⟩ => ⟨S16x64, .f32⟩
  | .hbm, ⟨17, _⟩ => ⟨S16x256, .f32⟩
  | .hbm, ⟨18, _⟩ => ⟨S_, .f32⟩
  | .hbm, ⟨19, _⟩ => ⟨S256, .f32⟩
  | .hbm, ⟨20, _⟩ => ⟨S256, .f32⟩
  | .hbm, ⟨21, _⟩ => ⟨S_, .f32⟩
  | .hbm, ⟨22, _⟩ => ⟨S256, .f32⟩
  | .hbm, ⟨23, _⟩ => ⟨S256, .f32⟩
  | .hbm, ⟨24, _⟩ => ⟨S1x256, .f32⟩
  | .hbm, ⟨25, _⟩ => ⟨S16x256, .f32⟩
  | .hbm, ⟨26, _⟩ => ⟨S16x256, .f32⟩
  | .hbm, ⟨27, _⟩ => ⟨S16x256, .f32⟩
  | .hbm, ⟨28, _⟩ => ⟨S16x256, .f32⟩
  | .hbm, ⟨29, _⟩ => ⟨S_, .f32⟩
  | .hbm, ⟨30, _⟩ => ⟨S16x256, .f32⟩
  | .hbm, ⟨31, _⟩ => ⟨S16x256, .f32⟩
  | .hbm, ⟨32, _⟩ => ⟨S_, .f32⟩
  | .hbm, ⟨33, _⟩ => ⟨S16x256, .f32⟩
  | .hbm, ⟨34, _⟩ => ⟨S16x256, .f32⟩
  | .hbm, ⟨35, _⟩ => ⟨S16x1x1x256, .f32⟩
  | .hbm, ⟨36, _⟩ => ⟨S16x256x256x256, .f32⟩
  | .hbm, ⟨37, _⟩ => ⟨S16x256x256x256, .f32⟩
  | _, _ => ⟨S16x256x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_call1_cst : Ref sig .tc := ⟨.hbm, 21, rfl⟩
abbrev main_call1_v0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  reducesTo_S16x256x256x256_S16x256_d1_2 : S16x256x256x256.ReducesTo [1, 2] S16x256
  h_S_ : 0 < S_.numel
  bcast_S_S16x256 : S_.BroadcastsInDim S16x256 (![] : Fin 0 → Fin S16x256.rank)
  bcast_S_S16x64 : S_.BroadcastsInDim S16x64 (![] : Fin 0 → Fin S16x64.rank)
  bcast_S_S256 : S_.BroadcastsInDim S256 (![] : Fin 0 → Fin S256.rank)
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  bcast_S16x256_S16x1x1x256_0_3 : S16x256.BroadcastsInDim S16x1x1x256 (![0, 3] : Fin 2 → Fin S16x1x1x256.rank)
  bcast_S16x1x1x256_S16x256x256x256_0_1_2_3 : S16x1x1x256.BroadcastsInDim S16x256x256x256 (![0, 1, 2, 3] : Fin 4 → Fin S16x256x256x256.rank)
  dot_S16x256_S256x64_S16x64_1_0_0_1_n_n_wf : DotDims.WF S16x256 S256x64 S16x64 [1] [0] [0] [1] [] []
  dot_S16x64_S64x256_S16x256_1_0_0_1_n_n_wf : DotDims.WF S16x64 S64x256 S16x256 [1] [0] [0] [1] [] []

variable [Facts₀]

def dot_S16x256_S256x64_S16x64_1_0_0_1_n_n : DotDims S16x256 S256x64 S16x64 where
  lhsContracting := [1]
  rhsContracting := [0]
  lhsNonContracting := [0]
  rhsNonContracting := [1]
  lhsBatch := []
  rhsBatch := []
  wf := dot_S16x256_S256x64_S16x64_1_0_0_1_n_n_wf
def dot_S16x64_S64x256_S16x256_1_0_0_1_n_n : DotDims S16x64 S64x256 S16x256 where
  lhsContracting := [1]
  rhsContracting := [0]
  lhsNonContracting := [0]
  rhsNonContracting := [1]
  lhsBatch := []
  rhsBatch := []
  wf := dot_S16x64_S64x256_S16x256_1_0_0_1_n_n_wf

class Facts : Prop extends Facts₀ where

variable [Facts]
-- ==== Proof.Bits.PoolBody.lean ====
/-
  The pooling region's body, at either instance. One grid point (batch entry b, tile j of 32 image rows) adds, for
  every channel, the sum of that tile's 32 × 256 entries to a running row of 256 channel totals kept in a scratch
  buffer; the first tile of a batch entry starts the row from zero, and the last tile copies the finished row out.
  Three cases of the two conditionals occur on the grid: first tile, a middle tile, last tile.
-/
import proofs.«156691_j13735305412823_1_alg».proof.Proof.Gen.Kernel.Launch
import proofs.«156691_j13735305412823_1_alg».proof.Proof.Gen.Kernel.Skeleton
import proofs.«156691_j13735305412823_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]

local notation "𝕄" => MT nD τ sig Unit (Elt F) ℕ (UR sig nD τ) ℕ

/-- The two conditions of the body, as the kernel computes them from the tile coordinate: "this is the first tile"
    and "this is the last tile". -/
abbrev isFirst (i : grid0.Coords) : Prop := (Scalar.cmpi .ne (Scalar.extui (Scalar.cmpi .eq (BitVec.ofNat 32 (i 1).val) 0#32)) 0#32) = 1#1
abbrev isLast (i : grid0.Coords) : Prop := k0_cond2 i = 1#1

theorem hz4 : (![0, 0, 0, 0] : Fin 4 → Nat) = fun _ => 0 := funext fun a => by fin_cases a <;> rfl

/-- The running row after a tile: the row before plus the tile's per-channel sums. -/
abbrev accNext (x : Vec F S1x32x256x256 .f32) (a : Vec F S1x1x1x256 .f32) : Vec F S1x1x1x256 .f32 := k0_pay2 x a
/-- The row a batch entry starts from: zeros. -/
abbrev accZero : Vec F S1x1x1x256 .f32 := k0_pay1 (F := F)

set_option maxHeartbeats 1000000 in
/-- First tile: the row is reset and the tile's sums added; the output buffer is not touched. -/
theorem sound_first (c : Dev nD) (E : Set ℕ) (i : grid0.Coords) (hF : isFirst i) (hL : ¬ isLast i)
    (arg2 : Memref sig .tc .vmem S1x32x256x256 .f32) (harg2 : arg2.IsWhole) (arg3 : Memref sig .tc .vmem S1x1x1x256 .f32) (harg3 : arg3.IsWhole)
    (arg4 : Memref sig .tc .vmem S1x1x1x256 .f32) (harg4 : arg4.IsWhole)
    (x : Vec F S1x32x256x256 .f32) (o : Vec F S1x1x1x256 .f32) (K : PUnit → sProp 𝕄) :
    iprop(owns (c : Thread nD τ) arg2 fullShare x ∗ owns (c : Thread nD τ) arg3 fullShare o ∗ (∃ a, owns (c : Thread nD τ) arg4 fullShare a)
        ∗ (iprop(owns (c : Thread nD τ) arg2 fullShare x ∗ owns (c : Thread nD τ) arg3 fullShare o
            ∗ owns (c : Thread nD τ) arg4 fullShare (accNext x (accZero (F := F)))) -∗ K ⟨⟩))
      ⊢ wp frame (wpE (defs₀ (F := F)) Variants.none c none) E (cc0__reduce_kernel i arg2 harg2 arg3 harg3 arg4 harg4) K := by
  simp only [cc0__reduce_kernel_eq_skeleton]; unfold cc0__reduce_kernel_skel
  unfold owns
  iintro ⟨⟨%f0, %hf0, H0⟩, ⟨%f1, %hf1, H1⟩, ⟨%a2, %f2, -, H2⟩, Hk⟩
  subst hf0; subst hf1
  sl_exec (disch := first | exact hF | exact hL)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_cons_self .., View.mem_set_unit_zero hz4 inb_S1x1x1x256_S1x1x1x256_0_0_0_0 y⟩),
    View.canon_cons_unit_zero hz4]
  sl_unfold_words
  simp only [View.readAt_eq_ld, View.ld_unit_zero (S := S1x32x256x256) hz4, View.readCov_unit_zero (S := S1x1x1x256) _ hz4]

set_option maxHeartbeats 1000000 in
/-- A middle tile: the tile's sums are added to the row; the output buffer is not touched. -/
theorem sound_mid (c : Dev nD) (E : Set ℕ) (i : grid0.Coords) (hF : ¬ isFirst i) (hL : ¬ isLast i)
    (arg2 : Memref sig .tc .vmem S1x32x256x256 .f32) (harg2 : arg2.IsWhole) (arg3 : Memref sig .tc .vmem S1x1x1x256 .f32) (harg3 : arg3.IsWhole)
    (arg4 : Memref sig .tc .vmem S1x1x1x256 .f32) (harg4 : arg4.IsWhole)
    (x : Vec F S1x32x256x256 .f32) (o : Vec F S1x1x1x256 .f32) (a : Vec F S1x1x1x256 .f32) (K : PUnit → sProp 𝕄) :
    iprop(owns (c : Thread nD τ) arg2 fullShare x ∗ owns (c : Thread nD τ) arg3 fullShare o ∗ owns (c : Thread nD τ) arg4 fullShare a
        ∗ (iprop(owns (c : Thread nD τ) arg2 fullShare x ∗ owns (c : Thread nD τ) arg3 fullShare o
            ∗ owns (c : Thread nD τ) arg4 fullShare (accNext x a)) -∗ K ⟨⟩))
      ⊢ wp frame (wpE (defs₀ (F := F)) Variants.none c none) E (cc0__reduce_kernel i arg2 harg2 arg3 harg3 arg4 harg4) K := by
  simp only [cc0__reduce_kernel_eq_skeleton]; unfold cc0__reduce_kernel_skel
  unfold owns
  iintro ⟨⟨%f0, %hf0, H0⟩, ⟨%f1, %hf1, H1⟩, ⟨%f2, %hf2, H2⟩, Hk⟩
  subst hf0; subst hf1; subst hf2
  sl_exec (disch := first | exact hF | exact hL)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_cons_self .., View.mem_set_unit_zero hz4 inb_S1x1x1x256_S1x1x1x256_0_0_0_0 y⟩),
    View.canon_cons_unit_zero hz4]
  sl_unfold_words
  simp only [View.readAt_eq_ld, View.ld_unit_zero (S := S1x32x256x256) hz4, View.ld_unit_zero (S := S1x1x1x256) hz4]

set_option maxHeartbeats 1000000 in
/-- Last tile: the tile's sums are added to the row and the finished row is copied to the output buffer. -/
theorem sound_last (c : Dev nD) (E : Set ℕ) (i : grid0.Coords) (hF : ¬ isFirst i) (hL : isLast i)
    (arg2 : Memref sig .tc .vmem S1x32x256x256 .f32) (harg2 : arg2.IsWhole) (arg3 : Memref sig .tc .vmem S1x1x1x256 .f32) (harg3 : arg3.IsWhole)
    (arg4 : Memref sig .tc .vmem S1x1x1x256 .f32) (harg4 : arg4.IsWhole)
    (x : Vec F S1x32x256x256 .f32) (a : Vec F S1x1x1x256 .f32) (K : PUnit → sProp 𝕄) :
    iprop(owns (c : Thread nD τ) arg2 fullShare x ∗ (∃ o, owns (c : Thread nD τ) arg3 fullShare o) ∗ owns (c : Thread nD τ) arg4 fullShare a
        ∗ (iprop(owns (c : Thread nD τ) arg2 fullShare x ∗ owns (c : Thread nD τ) arg3 fullShare (accNext x a)
            ∗ owns (c : Thread nD τ) arg4 fullShare (accNext x a)) -∗ K ⟨⟩))
      ⊢ wp frame (wpE (defs₀ (F := F)) Variants.none c none) E (cc0__reduce_kernel i arg2 harg2 arg3 harg3 arg4 harg4) K := by
  simp only [cc0__reduce_kernel_eq_skeleton]; unfold cc0__reduce_kernel_skel
  unfold owns
  iintro ⟨⟨%f0, %hf0, H0⟩, ⟨%o1, %f1, -, H1⟩, ⟨%f2, %hf2, H2⟩, Hk⟩
  subst hf0; subst hf2
  sl_exec (disch := first | exact hF | exact hL)
  sl_step
  iapply Hk
  isplitl [H0]
  · iexists f0; isplitr; · ipureintro; rfl
    iexact H0
  isplitl [H1]
  · iexists _; isplitr
    swap; · iexact H1
    ipureintro
    rw [View.read_writes_eq_canon _ _ _ (fun y => ⟨_, List.mem_cons_self .., View.mem_set_unit_zero hz4 inb_S1x1x1x256_S1x1x1x256_0_0_0_0 y⟩),
      View.canon_cons_unit_zero hz4]
    sl_unfold_words
    simp only [View.readAt_eq_ld, View.ld_unit_zero (S := S1x32x256x256) hz4, View.ld_unit_zero (S := S1x1x1x256) hz4,
      View.readCov_unit_zero (S := S1x1x1x256) _ hz4]
  iexists _; isplitr
  swap; · iexact H2
  ipureintro
  sl_unfold_words
  rw [View.read_writes_eq_canon _ _ _ (fun y => ⟨_, List.mem_cons_self .., View.mem_set_unit_zero hz4 inb_S1x1x1x256_S1x1x1x256_0_0_0_0 y⟩),
    View.canon_cons_unit_zero hz4]
  simp only [View.readAt_eq_ld, View.ld_unit_zero (S := S1x32x256x256) hz4, View.ld_unit_zero (S := S1x1x1x256) hz4]

end Cert.Kernel.Pool

end
-- ==== Proof.Bits.PoolRegion.lean ====
/-
  The pooling region as a pipeline: the proof data and the body obligation, at either instance, over the buffer
  contents the region is entered with. Grid position n = 8·b + j is tile j of batch entry b. The scratch row after
  position n is the sum of the per-channel tile sums of positions 8·b … n, started from zero at j = 0; the region's
  invariant carries that row from one position to the next, and at j = 7 the row is what the output window holds.
-/
import proofs.«156691_j13735305412823_1_alg».proof.Proof.Bits.PoolBody

set_option maxRecDepth 16384

noncomputable section

namespace Cert.Kernel.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Where the conditions hold on the grid, and where the output window is idle -/

theorem hFirst : ∀ t : Fin cfg0.N, isFirst (grid0.coords t) ↔ t.val % 8 = 0 :=
  (by decide +kernel : ∀ t : Fin grid0.N, isFirst (grid0.coords t) ↔ t.val % 8 = 0)
theorem hLast : ∀ t : Fin cfg0.N, isLast (grid0.coords t) ↔ t.val % 8 = 7 :=
  (by decide +kernel : ∀ t : Fin grid0.N, isLast (grid0.coords t) ↔ t.val % 8 = 7)
theorem liveAt0_0 : ∀ t : Fin cfg0.N, cfg0.idle 0 (grid0.coords t) = false := by decide +kernel
theorem idleAt0_1 : ∀ t : Fin cfg0.N, ¬ isLast (grid0.coords t) → cfg0.idle 1 (grid0.coords t) = true := by decide +kernel
theorem liveAt0_1 : ∀ t : Fin cfg0.N, isLast (grid0.coords t) → cfg0.idle 1 (grid0.coords t) = false := by decide +kernel
theorem noFlush0_1 : ∀ t : Fin cfg0.N, ¬ isLast (grid0.coords t) → (cfg0.win 1).flush t = false := by decide +kernel

/-! ## The image window's blocks, and the running row -/

/-- Window w's block at position t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The image window's current staging buffer holds its block at every position (it is fetched at each). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The scratch row after position n: restarted from zero at the first tile of a batch entry, else the row of the
    position before, plus this tile's per-channel sums. -/
def accAt (c : Dev nD) : (n : ℕ) → n < cfg0.N → Vec F S1x1x1x256 .f32
  | 0, hn => accNext (iblk0 V c 0 ⟨0, hn⟩) (accZero (F := F))
  | n + 1, hn =>
    if (n + 1) % 8 = 0 then accNext (iblk0 V c 0 ⟨n + 1, hn⟩) (accZero (F := F))
    else accNext (iblk0 V c 0 ⟨n + 1, hn⟩) (accAt c n (Nat.lt_of_succ_lt hn))

theorem accAt_first (c : Dev nD) (t : Fin cfg0.N) (h : t.val % 8 = 0) :
    accAt V c t.val t.isLt = accNext (iblk0 V c 0 t) (accZero (F := F)) := by
  obtain ⟨n, hn⟩ := t
  cases n with
  | zero => rfl
  | succ n => exact if_pos h

theorem accAt_next (c : Dev nD) (t : Fin cfg0.N) (h : ¬ t.val % 8 = 0) :
    accAt V c t.val t.isLt = accNext (iblk0 V c 0 t) (accAt V c (t.val - 1) (Nat.lt_of_le_of_lt (Nat.sub_le _ _) t.isLt)) := by
  obtain ⟨n, hn⟩ := t
  cases n with
  | zero => exact absurd (Nat.zero_mod _) h
  | succ n => exact if_neg h

/-! ## The invariant: the scratch row carried between positions -/

/-- The scratch buffer, as the body is handed it. -/
abbrev scM : Memref sig .tc .vmem S1x1x1x256 .f32 := Memref.whole cc0_scratch0

/-- The core's other scoped buffers that this region does not stage (the gating region's six staging buffers), each at
    some contents: they ride through untouched. -/
def restS (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- What the launch hands the region: the scratch at anything, the other scoped buffers, the generator register. -/
theorem PhiA0_eq (c : Dev nD) :
    (Pipeline.ΦA spec0 c : sProp 𝕄)
      = iprop(((∃ d, owns (c : Thread nD τ) scM fullShare d) ∗ restS (F := F) c) ∗ (∃ r, prngReg c r)) := by
  unfold Pipeline.ΦA; rw [scopedRest0_eq]; simp only [scM, owns_whole, restS]; try rfl

/-- The invariant before position n: at the start what the launch hands over; afterwards the scratch at the row the
    position before left. -/
def PhiS (c : Dev nD) : (n : ℕ) → n ≤ cfg0.N → sProp 𝕄
  | 0, _ => Pipeline.ΦA spec0 c
  | n + 1, hn => iprop((owns (c : Thread nD τ) scM fullShare (accAt V c n hn) ∗ restS (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) scM fullShare (accAt V c n hn) ∗ restS (F := F) c) ∗ (∃ r, prngReg c r)) := rfl

theorem PhiS_pos (c : Dev nD) (n : ℕ) (h : n ≤ cfg0.N) (hz : n ≠ 0) :
    PhiS V c n h = iprop((owns (c : Thread nD τ) scM fullShare (accAt V c (n - 1) (by omega)) ∗ restS (F := F) c) ∗ (∃ r, prngReg c r)) := by
  cases n with
  | zero => exact absurd rfl hz
  | succ n => rfl

/-! ## The proof data -/

/-- The arrays as the region finds them; after the body at position t the image window at its block and the output
    window at the running row; the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => accAt V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = accAt V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 2000000 in
/-- The body at any position, by the tile's place in its batch entry: the invariant hands the body the scratch at the
    row the position before left (at anything before the very first position), and takes it back at this position's
    row; at a batch entry's last tile the output window ends at that row, elsewhere it is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (st0_0 t) fullShare ((dat0 V c).after 0 t) from by
    unfold Dat.leavesExact; rw [liveAt0_0 t], after0_0]
  by_cases hl : t.val % 8 = 7
  · -- the last tile of a batch entry
    have hL : isLast (grid0.coords t) := (hLast t).mpr hl
    have hF : ¬ isFirst (grid0.coords t) := fun h => by have := (hFirst t).mp h; omega
    have hz : t.val ≠ 0 := by omega
    rw [show (dat0 V c).leavesExact 1 t = owns (c : Thread nD τ) (st0_1 t) fullShare ((dat0 V c).after 1 t) from by
      unfold Dat.leavesExact; rw [liveAt0_1 t hL], after0_1]
    rw [accAt_next V c t (by omega), PhiS_castSucc V c t, PhiS_pos V c _ _ hz]
    iintro ⟨⟨⟨HS, Hrest⟩, Hg⟩, Ho, ⟨%d0, H0⟩, ⟨%d1, H1⟩⟩
    iapply (sound_last c Set.univ (grid0.coords t) hF hL _ _ _ _ _ _ (iblk0 V c 0 t) _ _)
    isplitl [H0]; · iexact H0
    isplitl [H1]; · iexists _; iexact H1
    isplitl [HS]; · iexact HS
    iintro ⟨H0, H1, HS⟩
    isplitl [HS Hrest Hg]
    · isplitl [HS Hrest]
      · isplitl [HS]; · iexact HS
        iexact Hrest
      iexact Hg
    isplitl [Ho]; · iexact Ho
    isplitl [H0]; · iexact H0
    iexact H1
  · have hL : ¬ isLast (grid0.coords t) := fun h => hl ((hLast t).mp h)
    rw [Dat.leavesExact_idle (dat0 V c) 1 t (idleAt0_1 t hL) (noFlush0_1 t hL)]
    by_cases hf : t.val % 8 = 0
    · -- the first tile of a batch entry
      have hF : isFirst (grid0.coords t) := (hFirst t).mpr hf
      rw [accAt_first V c t hf]
      by_cases hz : t.val = 0
      · rw [PhiS_castSucc V c t, PhiS_zero V c _ _ hz, PhiA0_eq]
        iintro ⟨⟨⟨HS, Hrest⟩, Hg⟩, Ho, ⟨%d0, H0⟩, ⟨%d1, H1⟩⟩
        iapply (sound_first c Set.univ (grid0.coords t) hF hL _ _ _ _ _ _ (iblk0 V c 0 t) _ _)
        isplitl [H0]; · iexact H0
        isplitl [H1]; · iexact H1
        isplitl [HS]; · iexact HS
        iintro ⟨H0, H1, HS⟩
        isplitl [HS Hrest Hg]
        · isplitl [HS Hrest]
          · isplitl [HS]; · iexact HS
            iexact Hrest
          iexact Hg
        isplitl [Ho]; · iexact Ho
        isplitl [H0]; · iexact H0
        iexists _; iexact H1
      · rw [PhiS_castSucc V c t, PhiS_pos V c _ _ hz]
        iintro ⟨⟨⟨HS, Hrest⟩, Hg⟩, Ho, ⟨%d0, H0⟩, ⟨%d1, H1⟩⟩
        iapply (sound_first c Set.univ (grid0.coords t) hF hL _ _ _ _ _ _ (iblk0 V c 0 t) _ _)
        isplitl [H0]; · iexact H0
        isplitl [H1]; · iexact H1
        isplitl [HS]; · iexists _; iexact HS
        iintro ⟨H0, H1, HS⟩
        isplitl [HS Hrest Hg]
        · isplitl [HS Hrest]
          · isplitl [HS]; · iexact HS
            iexact Hrest
          iexact Hg
        isplitl [Ho]; · iexact Ho
        isplitl [H0]; · iexact H0
        iexists _; iexact H1
    · -- a middle tile
      have hF : ¬ isFirst (grid0.coords t) := fun h => hf ((hFirst t).mp h)
      have hz : t.val ≠ 0 := fun e => hf (by rw [e])
      rw [accAt_next V c t hf, PhiS_castSucc V c t, PhiS_pos V c _ _ hz]
      iintro ⟨⟨⟨HS, Hrest⟩, Hg⟩, Ho, ⟨%d0, H0⟩, ⟨%d1, H1⟩⟩
      iapply (sound_mid c Set.univ (grid0.coords t) hF hL _ _ _ _ _ _ (iblk0 V c 0 t) _ _ _)
      isplitl [H0]; · iexact H0
      isplitl [H1]; · iexact H1
      isplitl [HS]; · iexact HS
      iintro ⟨H0, H1, HS⟩
      isplitl [HS Hrest Hg]
      · isplitl [HS Hrest]
        · isplitl [HS]; · iexact HS
          iexact Hrest
        iexact Hg
      isplitl [Ho]; · iexact Ho
      isplitl [H0]; · iexact H0
      iexists _; iexact H1

/-- The library's body obligation, at every position. -/
theorem body_obligation0 (c : Dev nD) : BodyObligation (dat0 (F := F) V c) (defs₀ (F := F)) Variants.none () Set.univ := fun t => by
  rw [bigSep_W0, bigSep_W0]
  exact sound_body0 V c t

/-! ## In and out of the invariant -/

theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last position the invariant gives back what the launch handed over: the scratch row's name is
    forgotten. -/
theorem hout0 (c : Dev nD) : (dat0 V c).Φ (Fin.last cfg0.N) ⊢ Pipeline.ΦA spec0 c := by
  have ht : (Fin.last cfg0.N).val ≠ 0 := by rw [Fin.val_last]; have : cfg0.N = 128 := N_0; omega
  rw [show (dat0 V c).Φ (Fin.last cfg0.N) = PhiS V c (Fin.last cfg0.N).val (Nat.le_of_lt_succ (Fin.last cfg0.N).isLt) from rfl,
    PhiS_pos V c _ _ ht, PhiA0_eq]
  iintro ⟨⟨HS, Hrest⟩, Hg⟩
  isplitl [HS Hrest]
  · isplitl [HS]; · iexists _; iexact HS
    iexact Hrest
  iexact Hg

end Cert.Kernel.Pool

end
-- ==== Proof.Bits.GateBody.lean ====
/-
  The gating region's body, at either instance: one grid point multiplies a block of 16 image rows of one
  batch entry, entry by entry, with that batch entry's gate row broadcast over the rows and columns.
-/
import proofs.«156691_j13735305412823_1_alg».proof.Proof.Gen.Kernel.Launch
import proofs.«156691_j13735305412823_1_alg».proof.Proof.Gen.Kernel.Skeleton
import proofs.«156691_j13735305412823_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]

local notation "𝕄" => MT nD τ sig Unit (Elt F) ℕ (UR sig nD τ) ℕ

/-- The whole 1×16×256×256 block, and the whole 1×1×1×256 gate row, as rectangles. -/
abbrev rBlk : Rect S1x16x256x256 := Rect.unit (s := S1x16x256x256) ![0, 0, 0, 0] S1x16x256x256.size inb_S1x16x256x256_S1x16x256x256_0_0_0_0
abbrev rRow : Rect S1x1x1x256 := Rect.unit (s := S1x1x1x256) ![0, 0, 0, 0] S1x1x1x256.size inb_S1x1x1x256_S1x1x1x256_0_0_0_0

/-- What the body leaves in the output block: the image block times the broadcast gate row. -/
def gated (x : Vec F S1x16x256x256 .f32) (g : Vec F S1x1x1x256 .f32) : Vec F S1x16x256x256 .f32 :=
  View.canon [⟨rBlk, k1_pay1 (View.ld g rRow) (View.ld x rBlk)⟩]

/-- The single store covers the output block. -/
theorem gated_cover (p0 : Vec F S1x16x256x256 .f32) (y : S1x16x256x256.Idx) :
    ∃ pc ∈ ([⟨rBlk, p0⟩] : List (View.Piece (Elt F) S1x16x256x256 .f32)), y ∈ pc.1.set :=
  View.cover_of_tiled [⟨rBlk, p0⟩] S1x16x256x256.size (by rfl) y

set_option maxHeartbeats 1000000 in
/-- The body on whole staging buffers: the image block and the gate row are read and kept, the output block ends at
    their product. -/
theorem sound_mul (c : Dev nD) (E : Set ℕ) (i : grid1.Coords)
    (arg2 : Memref sig .tc .vmem S1x16x256x256 .f32) (harg2 : arg2.IsWhole) (arg3 : Memref sig .tc .vmem S1x1x1x256 .f32) (harg3 : arg3.IsWhole)
    (arg4 : Memref sig .tc .vmem S1x16x256x256 .f32) (harg4 : arg4.IsWhole)
    (x : Vec F S1x16x256x256 .f32) (g : Vec F S1x1x1x256 .f32) (K : PUnit → sProp 𝕄) :
    iprop(owns (c : Thread nD τ) arg2 fullShare x ∗ owns (c : Thread nD τ) arg3 fullShare g ∗ (∃ d, owns (c : Thread nD τ) arg4 fullShare d)
        ∗ (iprop(owns (c : Thread nD τ) arg2 fullShare x ∗ owns (c : Thread nD τ) arg3 fullShare g ∗ owns (c : Thread nD τ) arg4 fullShare (gated x g)) -∗ K ⟨⟩))
      ⊢ wp frame (wpE (defs₀ (F := F)) Variants.none c none) E (cc1__mul_kernel i arg2 harg2 arg3 harg3 arg4 harg4) K := by
  simp only [cc1__mul_kernel_eq_skeleton]; unfold cc1__mul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (gated_cover _)

end Cert.Kernel.Gate

end
-- ==== Proof.Bits.GateRegion.lean ====
/-
  The gating region as a pipeline: the proof data and the body obligation, at either instance, over the buffer
  contents the region is entered with. At grid point t the image window holds block t of the image, the gate window
  the gate row of the point's batch entry (fetched at the entry's first tile, in place afterwards), and the body
  leaves their product in the output window.
-/
import proofs.«156691_j13735305412823_1_alg».proof.Proof.Bits.GateBody

set_option maxRecDepth 16384

noncomputable section

namespace Cert.Kernel.Gate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: unfetched, its
    block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The proof data: the arrays as the region finds them; after the body at point t the two inputs at their blocks
    and the output at their product; the scoped rest and the generator register untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => gated (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = gated (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_mul c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Gate

end
-- ==== Proof.Bits.Run.lean ====
/-
  The run of the whole program, at either instance: @main is the pooling region, five stretches of host operations,
  and the gating region. The buffer contents are followed from boundary to boundary — a region leaves in each of its
  arrays what its write-backs fold to and every other buffer as entered; a host stretch leaves what its operations
  compute — and every weakly fair execution from a memory m ends with every unscoped buffer at the last boundary's
  contents. The frame (the arguments end as launched) and the result array's contents are read off that.
-/
import proofs.«156691_j13735305412823_1_alg».proof.Proof.Bits.PoolRegion
import proofs.«156691_j13735305412823_1_alg».proof.Proof.Bits.GateRegion
import proofs.«156691_j13735305412823_1_alg».proof.Proof.Gen.Kernel.Regions
import Idealize.ShloMosaic.Lib.Pipeline.RegionsLoop
import Idealize.ShloMosaic.Lib.Pipeline.FrameSuffix

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m ((c : Dev nD), b)
abbrev VV0 : (c : Dev nD) → (b : Ref sig .tc) → Buf (Elt F) ((c : Thread nD τ).loc b) := fun c b => W0 m c b
/-- After the pooling region: its arrays at what its write-backs leave, every other buffer as entered. -/
def W1 (c : Dev nD) : Valuation τ sig (Elt F) :=
  Pipeline.withArrays spec0 c (W0 m c) fun w => (Pool.dat0 (VV0 m) c).arrAt w cfg0.N
theorem W1_arr (c : Dev nD) (w : Fin cfg0.W) :
    W1 m c (Proc.devRef .tc (Pipeline.arrRef spec0 w)) = (Pool.dat0 (VV0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev VV1 : (c : Dev nD) → (b : Ref sig .tc) → Buf (Elt F) ((c : Thread nD τ).loc b) := fun c b => W1 m c b
theorem hF0 (c : Dev nD) (w : Fin cfg0.W) : (Pool.dat0 (VV0 m) c).arrAt w cfg0.N = VV1 m c (Pipeline.arrRef spec0 w) :=
  (W1_arr m c w).symm
theorem hrest0 (c : Dev nD) : ∀ b, b ∉ Finset.univ.image (Pipeline.arrRef spec0) → VV1 m c b = VV0 m c b :=
  fun b hb => W1_of_ne m c b fun w e => hb (Finset.mem_image.mpr ⟨w, Finset.mem_univ _, e⟩)

/-- After each of the five host stretches. -/
abbrev W2 : Dev nD → Valuation τ sig (Elt F) := fun c => StableHlo.after hostOps1 (W1 m c)
abbrev W3 : Dev nD → Valuation τ sig (Elt F) := fun c => StableHlo.after hostOps1_1 (W2 m c)
abbrev W4 : Dev nD → Valuation τ sig (Elt F) := fun c => StableHlo.after hostOps1_2 (W3 m c)
abbrev W5 : Dev nD → Valuation τ sig (Elt F) := fun c => StableHlo.after hostOps1_3 (W4 m c)
abbrev W6 : Dev nD → Valuation τ sig (Elt F) := fun c => StableHlo.after hostOps1_4 (W5 m c)
abbrev VV6 : (c : Dev nD) → (b : Ref sig .tc) → Buf (Elt F) ((c : Thread nD τ).loc b) := fun c b => W6 m c b
/-- After the gating region. -/
def W7 (c : Dev nD) : Valuation τ sig (Elt F) :=
  Pipeline.withArrays spec1 c (W6 m c) fun w => (Gate.dat1 (VV6 m) c).arrAt w cfg1.N
theorem W7_arr (c : Dev nD) (w : Fin cfg1.W) :
    W7 m c (Proc.devRef .tc (Pipeline.arrRef spec1 w)) = (Gate.dat1 (VV6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev VV7 : (c : Dev nD) → (b : Ref sig .tc) → Buf (Elt F) ((c : Thread nD τ).loc b) := fun c b => W7 m c b
theorem hF1 (c : Dev nD) (w : Fin cfg1.W) : (Gate.dat1 (VV6 m) c).arrAt w cfg1.N = VV7 m c (Pipeline.arrRef spec1 w) :=
  (W7_arr m c w).symm
theorem hrest1 (c : Dev nD) : ∀ b, b ∉ Finset.univ.image (Pipeline.arrRef spec1) → VV7 m c b = VV6 m c b :=
  fun b hb => W7_of_ne m c b fun w e => hb (Finset.mem_image.mpr ⟨w, Finset.mem_univ _, e⟩)

/-! ## A buffer no host stretch writes keeps its contents across the five stretches -/

theorem W6_of (c : Dev nD) (r : Ref sig .tc) (h1 : r ∉ hostOps1_W) (h2 : r ∉ hostOps1_1_W) (h3 : r ∉ hostOps1_2_W)
    (h4 : r ∉ hostOps1_3_W) (h5 : r ∉ hostOps1_4_W) : W6 m c r = W1 m c r :=
  (StableHlo.after_of_writes_sub hostOps1_4 _ hostOps1_4_writes h5).trans <|
  (StableHlo.after_of_writes_sub hostOps1_3 _ hostOps1_3_writes h4).trans <|
  (StableHlo.after_of_writes_sub hostOps1_2 _ hostOps1_2_writes h3).trans <|
  (StableHlo.after_of_writes_sub hostOps1_1 _ hostOps1_1_writes h2).trans <|
  (StableHlo.after_of_writes_sub hostOps1 _ hostOps1_writes h1)

/-- The image is an input of both regions and no stretch writes it: it ends as launched. -/
theorem W7_main_arg0 (c : Dev nD) : W7 m c (Proc.devRef .tc main_arg0) = m ((c : Thread nD τ).loc main_arg0) :=
  calc W7 m c (Proc.devRef .tc main_arg0)
    _ = W6 m c (Proc.devRef .tc main_arg0) := (W7_arr m c 0).trans (((Gate.dat1 (VV6 m) c).arrAt_in 0 rfl _).trans (Gate.A_eq1 (VV6 m) c 0))
    _ = W1 m c (Proc.devRef .tc main_arg0) := W6_of m c main_arg0 (by decide) (by decide) (by decide) (by decide) (by decide)
    _ = W0 m c (Proc.devRef .tc main_arg0) := (W1_arr m c 0).trans (((Pool.dat0 (VV0 m) c).arrAt_in 0 rfl _).trans (Pool.A_eq0 (VV0 m) c 0))
    _ = m ((c : Thread nD τ).loc main_arg0) := rfl
/-- The weights are no region's array and no stretch writes them: they end as launched. -/
theorem W7_main_arg1 (c : Dev nD) : W7 m c (Proc.devRef .tc main_arg1) = m ((c : Thread nD τ).loc main_arg1) :=
  calc W7 m c (Proc.devRef .tc main_arg1)
    _ = W6 m c (Proc.devRef .tc main_arg1) := W7_of_ne m c main_arg1 (by decide)
    _ = W1 m c (Proc.devRef .tc main_arg1) := W6_of m c main_arg1 (by decide) (by decide) (by decide) (by decide) (by decide)
    _ = W0 m c (Proc.devRef .tc main_arg1) := W1_of_ne m c main_arg1 (by decide)
    _ = m ((c : Thread nD τ).loc main_arg1) := rfl
theorem W7_main_arg2 (c : Dev nD) : W7 m c (Proc.devRef .tc main_arg2) = m ((c : Thread nD τ).loc main_arg2) :=
  calc W7 m c (Proc.devRef .tc main_arg2)
    _ = W6 m c (Proc.devRef .tc main_arg2) := W7_of_ne m c main_arg2 (by decide)
    _ = W1 m c (Proc.devRef .tc main_arg2) := W6_of m c main_arg2 (by decide) (by decide) (by decide) (by decide) (by decide)
    _ = W0 m c (Proc.devRef .tc main_arg2) := W1_of_ne m c main_arg2 (by decide)
    _ = m ((c : Thread nD τ).loc main_arg2) := rfl
theorem W7_main_arg3 (c : Dev nD) : W7 m c (Proc.devRef .tc main_arg3) = m ((c : Thread nD τ).loc main_arg3) :=
  calc W7 m c (Proc.devRef .tc main_arg3)
    _ = W6 m c (Proc.devRef .tc main_arg3) := W7_of_ne m c main_arg3 (by decide)
    _ = W1 m c (Proc.devRef .tc main_arg3) := W6_of m c main_arg3 (by decide) (by decide) (by decide) (by decide) (by decide)
    _ = W0 m c (Proc.devRef .tc main_arg3) := W1_of_ne m c main_arg3 (by decide)
    _ = m ((c : Thread nD τ).loc main_arg3) := rfl

/-! ## The proof data family and what rides beside the buffers -/

/-- Each region's proof data at its entry contents. -/
def pdats : (p : Fin 2) → (c : Dev nD) → Dat τ (Elt F) Unit ℕ (UR sig nD τ) ℕ (Pipeline.pin (pcfgs (F := F)) adm p) c
  | ⟨0, _⟩ => fun c => Pool.dat0 (VV0 m) c
  | ⟨1, _⟩ => fun c => Gate.dat1 (VV6 m) c
abbrev 𝒱₀ : Variants := Variants.none
abbrev L : GSem nD τ sig → Finset Unit := fun _ => ∅
abbrev lv : GSem nD τ sig → Unit → ℕ := fun _ _ => 0
/-- Beside the buffers through every segment: the generator register at some state, and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- The pooling region: entered with every unscoped buffer at the launch contents, left with them at the next
    boundary's. Its arrays are split out of the unscoped buffers and put back at the exit contents; the generator
    register and the scoped rest go into the invariant (which names the scratch row from the first position on) and
    come back out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Pool.body_obligation0 (VV0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VV0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VV0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = (Pool.dat0 (VV0 m) c).Φ (Fin.last cfg0.N) from rfl]
    refine (Pool.hout0 (VV0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VV0 m c) (VV1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The gating region: entered with every unscoped buffer at the contents after the last host stretch, left with them
    at the last boundary's; the generator register and the scoped rest through the invariant unchanged. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Gate.body_obligation1 (VV6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VV6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VV6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VV6 m c) (VV7 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev psegs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .host (hseg hostOps1_3 hostOps1_3_sub hostOps1_3_fresh (W4 m)),
    .host (hseg hostOps1_4 hostOps1_4_sub hostOps1_4_fresh (W5 m)),
    .region (reg1 m) ]

set_option backward.isDefEq.respectTransparency.types false in
/-- THE RUN. From any memory with zero counters every weakly fair execution of @main on the TensorCores terminates,
    nothing faulting, and in every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (psegs m)
    (fun c Q => by
      rewrite [main_chain c, Pipeline.Seg.run_eq_chain,
        show (psegs m).map Pipeline.Seg.prog = [
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()) ] from rfl]
      exact .rfl)
    (by simp only [psegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-- THE FRAME, at either instance: the four arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c)⟩) (run_all m ρ)

/-- The result array after the run: what the gating region's write-backs fold to, beside the frame. -/
theorem run_result : θ_run defs (onTc (τ := τ) (main (F := F))) ⟨m, fun _ => 0, ρ⟩ (fun r => ∀ c : Dev nD,
      r.2.mem ((c.tc : Thread nD τ).loc main_v24) = (Gate.dat1 (VV6 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v24 (by decide))).trans (W7_arr m c 2),
     (h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c)⟩) (run_all m ρ)

end Cert.Kernel.Run

end
-- ==== Proof.PoolBody.lean ====
/-
  The pooling region's body, at either instance. One grid point (batch entry b, tile j of 32 image rows) adds, for
  every channel, the sum of that tile's 32 × 256 entries to a running row of 256 channel totals kept in a scratch
  buffer; the first tile of a batch entry starts the row from zero, and the last tile copies the finished row out.
  Three cases of the two conditionals occur on the grid: first tile, a middle tile, last tile.
-/
import proofs.«156691_j13735305412823_1_alg».proof.Proof.Gen.KernelIdeal.Launch
import proofs.«156691_j13735305412823_1_alg».proof.Proof.Gen.KernelIdeal.Skeleton
import proofs.«156691_j13735305412823_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]

local notation "𝕄" => MT nD τ sig Unit (Elt F) ℕ (UR sig nD τ) ℕ

/-- The two conditions of the body, as the kernel computes them from the tile coordinate: "this is the first tile"
    and "this is the last tile". -/
abbrev isFirst (i : grid0.Coords) : Prop := (Scalar.cmpi .ne (Scalar.extui (Scalar.cmpi .eq (BitVec.ofNat 32 (i 1).val) 0#32)) 0#32) = 1#1
abbrev isLast (i : grid0.Coords) : Prop := k0_cond2 i = 1#1

theorem hz4 : (![0, 0, 0, 0] : Fin 4 → Nat) = fun _ => 0 := funext fun a => by fin_cases a <;> rfl

/-- The running row after a tile: the row before plus the tile's per-channel sums. -/
abbrev accNext (x : Vec F S1x32x256x256 .f32) (a : Vec F S1x1x1x256 .f32) : Vec F S1x1x1x256 .f32 := k0_pay2 x a
/-- The row a batch entry starts from: zeros. -/
abbrev accZero : Vec F S1x1x1x256 .f32 := k0_pay1 (F := F)

set_option maxHeartbeats 1000000 in
/-- First tile: the row is reset and the tile's sums added; the output buffer is not touched. -/
theorem sound_first (c : Dev nD) (E : Set ℕ) (i : grid0.Coords) (hF : isFirst i) (hL : ¬ isLast i)
    (arg2 : Memref sig .tc .vmem S1x32x256x256 .f32) (harg2 : arg2.IsWhole) (arg3 : Memref sig .tc .vmem S1x1x1x256 .f32) (harg3 : arg3.IsWhole)
    (arg4 : Memref sig .tc .vmem S1x1x1x256 .f32) (harg4 : arg4.IsWhole)
    (x : Vec F S1x32x256x256 .f32) (o : Vec F S1x1x1x256 .f32) (K : PUnit → sProp 𝕄) :
    iprop(owns (c : Thread nD τ) arg2 fullShare x ∗ owns (c : Thread nD τ) arg3 fullShare o ∗ (∃ a, owns (c : Thread nD τ) arg4 fullShare a)
        ∗ (iprop(owns (c : Thread nD τ) arg2 fullShare x ∗ owns (c : Thread nD τ) arg3 fullShare o
            ∗ owns (c : Thread nD τ) arg4 fullShare (accNext x (accZero (F := F)))) -∗ K ⟨⟩))
      ⊢ wp frame (wpE (defs₀ (F := F)) Variants.none c none) E (cc0__reduce_kernel i arg2 harg2 arg3 harg3 arg4 harg4) K := by
  simp only [cc0__reduce_kernel_eq_skeleton]; unfold cc0__reduce_kernel_skel
  unfold owns
  iintro ⟨⟨%f0, %hf0, H0⟩, ⟨%f1, %hf1, H1⟩, ⟨%a2, %f2, -, H2⟩, Hk⟩
  subst hf0; subst hf1
  sl_exec (disch := first | exact hF | exact hL)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_cons_self .., View.mem_set_unit_zero hz4 inb_S1x1x1x256_S1x1x1x256_0_0_0_0 y⟩),
    View.canon_cons_unit_zero hz4]
  sl_unfold_words
  simp only [View.readAt_eq_ld, View.ld_unit_zero (S := S1x32x256x256) hz4, View.readCov_unit_zero (S := S1x1x1x256) _ hz4]

set_option maxHeartbeats 1000000 in
/-- A middle tile: the tile's sums are added to the row; the output buffer is not touched. -/
theorem sound_mid (c : Dev nD) (E : Set ℕ) (i : grid0.Coords) (hF : ¬ isFirst i) (hL : ¬ isLast i)
    (arg2 : Memref sig .tc .vmem S1x32x256x256 .f32) (harg2 : arg2.IsWhole) (arg3 : Memref sig .tc .vmem S1x1x1x256 .f32) (harg3 : arg3.IsWhole)
    (arg4 : Memref sig .tc .vmem S1x1x1x256 .f32) (harg4 : arg4.IsWhole)
    (x : Vec F S1x32x256x256 .f32) (o : Vec F S1x1x1x256 .f32) (a : Vec F S1x1x1x256 .f32) (K : PUnit → sProp 𝕄) :
    iprop(owns (c : Thread nD τ) arg2 fullShare x ∗ owns (c : Thread nD τ) arg3 fullShare o ∗ owns (c : Thread nD τ) arg4 fullShare a
        ∗ (iprop(owns (c : Thread nD τ) arg2 fullShare x ∗ owns (c : Thread nD τ) arg3 fullShare o
            ∗ owns (c : Thread nD τ) arg4 fullShare (accNext x a)) -∗ K ⟨⟩))
      ⊢ wp frame (wpE (defs₀ (F := F)) Variants.none c none) E (cc0__reduce_kernel i arg2 harg2 arg3 harg3 arg4 harg4) K := by
  simp only [cc0__reduce_kernel_eq_skeleton]; unfold cc0__reduce_kernel_skel
  unfold owns
  iintro ⟨⟨%f0, %hf0, H0⟩, ⟨%f1, %hf1, H1⟩, ⟨%f2, %hf2, H2⟩, Hk⟩
  subst hf0; subst hf1; subst hf2
  sl_exec (disch := first | exact hF | exact hL)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_cons_self .., View.mem_set_unit_zero hz4 inb_S1x1x1x256_S1x1x1x256_0_0_0_0 y⟩),
    View.canon_cons_unit_zero hz4]
  sl_unfold_words
  simp only [View.readAt_eq_ld, View.ld_unit_zero (S := S1x32x256x256) hz4, View.ld_unit_zero (S := S1x1x1x256) hz4]

set_option maxHeartbeats 1000000 in
/-- Last tile: the tile's sums are added to the row and the finished row is copied to the output buffer. -/
theorem sound_last (c : Dev nD) (E : Set ℕ) (i : grid0.Coords) (hF : ¬ isFirst i) (hL : isLast i)
    (arg2 : Memref sig .tc .vmem S1x32x256x256 .f32) (harg2 : arg2.IsWhole) (arg3 : Memref sig .tc .vmem S1x1x1x256 .f32) (harg3 : arg3.IsWhole)
    (arg4 : Memref sig .tc .vmem S1x1x1x256 .f32) (harg4 : arg4.IsWhole)
    (x : Vec F S1x32x256x256 .f32) (a : Vec F S1x1x1x256 .f32) (K : PUnit → sProp 𝕄) :
    iprop(owns (c : Thread nD τ) arg2 fullShare x ∗ (∃ o, owns (c : Thread nD τ) arg3 fullShare o) ∗ owns (c : Thread nD τ) arg4 fullShare a
        ∗ (iprop(owns (c : Thread nD τ) arg2 fullShare x ∗ owns (c : Thread nD τ) arg3 fullShare (accNext x a)
            ∗ owns (c : Thread nD τ) arg4 fullShare (accNext x a)) -∗ K ⟨⟩))
      ⊢ wp frame (wpE (defs₀ (F := F)) Variants.none c none) E (cc0__reduce_kernel i arg2 harg2 arg3 harg3 arg4 harg4) K := by
  simp only [cc0__reduce_kernel_eq_skeleton]; unfold cc0__reduce_kernel_skel
  unfold owns
  iintro ⟨⟨%f0, %hf0, H0⟩, ⟨%o1, %f1, -, H1⟩, ⟨%f2, %hf2, H2⟩, Hk⟩
  subst hf0; subst hf2
  sl_exec (disch := first | exact hF | exact hL)
  sl_step
  iapply Hk
  isplitl [H0]
  · iexists f0; isplitr; · ipureintro; rfl
    iexact H0
  isplitl [H1]
  · iexists _; isplitr
    swap; · iexact H1
    ipureintro
    rw [View.read_writes_eq_canon _ _ _ (fun y => ⟨_, List.mem_cons_self .., View.mem_set_unit_zero hz4 inb_S1x1x1x256_S1x1x1x256_0_0_0_0 y⟩),
      View.canon_cons_unit_zero hz4]
    sl_unfold_words
    simp only [View.readAt_eq_ld, View.ld_unit_zero (S := S1x32x256x256) hz4, View.ld_unit_zero (S := S1x1x1x256) hz4,
      View.readCov_unit_zero (S := S1x1x1x256) _ hz4]
  iexists _; isplitr
  swap; · iexact H2
  ipureintro
  sl_unfold_words
  rw [View.read_writes_eq_canon _ _ _ (fun y => ⟨_, List.mem_cons_self .., View.mem_set_unit_zero hz4 inb_S1x1x1x256_S1x1x1x256_0_0_0_0 y⟩),
    View.canon_cons_unit_zero hz4]
  simp only [View.readAt_eq_ld, View.ld_unit_zero (S := S1x32x256x256) hz4, View.ld_unit_zero (S := S1x1x1x256) hz4]

end Cert.KernelIdeal.Pool

end
-- ==== Proof.PoolRegion.lean ====
/-
  The pooling region as a pipeline: the proof data and the body obligation, at either instance, over the buffer
  contents the region is entered with. Grid position n = 8·b + j is tile j of batch entry b. The scratch row after
  position n is the sum of the per-channel tile sums of positions 8·b … n, started from zero at j = 0; the region's
  invariant carries that row from one position to the next, and at j = 7 the row is what the output window holds.
-/
import proofs.«156691_j13735305412823_1_alg».proof.Proof.PoolBody

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Where the conditions hold on the grid, and where the output window is idle -/

theorem hFirst : ∀ t : Fin cfg0.N, isFirst (grid0.coords t) ↔ t.val % 8 = 0 :=
  (by decide +kernel : ∀ t : Fin grid0.N, isFirst (grid0.coords t) ↔ t.val % 8 = 0)
theorem hLast : ∀ t : Fin cfg0.N, isLast (grid0.coords t) ↔ t.val % 8 = 7 :=
  (by decide +kernel : ∀ t : Fin grid0.N, isLast (grid0.coords t) ↔ t.val % 8 = 7)
theorem liveAt0_0 : ∀ t : Fin cfg0.N, cfg0.idle 0 (grid0.coords t) = false := by decide +kernel
theorem idleAt0_1 : ∀ t : Fin cfg0.N, ¬ isLast (grid0.coords t) → cfg0.idle 1 (grid0.coords t) = true := by decide +kernel
theorem liveAt0_1 : ∀ t : Fin cfg0.N, isLast (grid0.coords t) → cfg0.idle 1 (grid0.coords t) = false := by decide +kernel
theorem noFlush0_1 : ∀ t : Fin cfg0.N, ¬ isLast (grid0.coords t) → (cfg0.win 1).flush t = false := by decide +kernel

/-! ## The image window's blocks, and the running row -/

/-- Window w's block at position t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The image window's current staging buffer holds its block at every position (it is fetched at each). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The scratch row after position n: restarted from zero at the first tile of a batch entry, else the row of the
    position before, plus this tile's per-channel sums. -/
def accAt (c : Dev nD) : (n : ℕ) → n < cfg0.N → Vec F S1x1x1x256 .f32
  | 0, hn => accNext (iblk0 V c 0 ⟨0, hn⟩) (accZero (F := F))
  | n + 1, hn =>
    if (n + 1) % 8 = 0 then accNext (iblk0 V c 0 ⟨n + 1, hn⟩) (accZero (F := F))
    else accNext (iblk0 V c 0 ⟨n + 1, hn⟩) (accAt c n (Nat.lt_of_succ_lt hn))

theorem accAt_first (c : Dev nD) (t : Fin cfg0.N) (h : t.val % 8 = 0) :
    accAt V c t.val t.isLt = accNext (iblk0 V c 0 t) (accZero (F := F)) := by
  obtain ⟨n, hn⟩ := t
  cases n with
  | zero => rfl
  | succ n => exact if_pos h

theorem accAt_next (c : Dev nD) (t : Fin cfg0.N) (h : ¬ t.val % 8 = 0) :
    accAt V c t.val t.isLt = accNext (iblk0 V c 0 t) (accAt V c (t.val - 1) (Nat.lt_of_le_of_lt (Nat.sub_le _ _) t.isLt)) := by
  obtain ⟨n, hn⟩ := t
  cases n with
  | zero => exact absurd (Nat.zero_mod _) h
  | succ n => exact if_neg h

/-! ## The invariant: the scratch row carried between positions -/

/-- The scratch buffer, as the body is handed it. -/
abbrev scM : Memref sig .tc .vmem S1x1x1x256 .f32 := Memref.whole cc0_scratch0

/-- The core's other scoped buffers that this region does not stage (the gating region's six staging buffers), each at
    some contents: they ride through untouched. -/
def restS (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- What the launch hands the region: the scratch at anything, the other scoped buffers, the generator register. -/
theorem PhiA0_eq (c : Dev nD) :
    (Pipeline.ΦA spec0 c : sProp 𝕄)
      = iprop(((∃ d, owns (c : Thread nD τ) scM fullShare d) ∗ restS (F := F) c) ∗ (∃ r, prngReg c r)) := by
  unfold Pipeline.ΦA; rw [scopedRest0_eq]; simp only [scM, owns_whole, restS]; try rfl

/-- The invariant before position n: at the start what the launch hands over; afterwards the scratch at the row the
    position before left. -/
def PhiS (c : Dev nD) : (n : ℕ) → n ≤ cfg0.N → sProp 𝕄
  | 0, _ => Pipeline.ΦA spec0 c
  | n + 1, hn => iprop((owns (c : Thread nD τ) scM fullShare (accAt V c n hn) ∗ restS (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) scM fullShare (accAt V c n hn) ∗ restS (F := F) c) ∗ (∃ r, prngReg c r)) := rfl

theorem PhiS_pos (c : Dev nD) (n : ℕ) (h : n ≤ cfg0.N) (hz : n ≠ 0) :
    PhiS V c n h = iprop((owns (c : Thread nD τ) scM fullShare (accAt V c (n - 1) (by omega)) ∗ restS (F := F) c) ∗ (∃ r, prngReg c r)) := by
  cases n with
  | zero => exact absurd rfl hz
  | succ n => rfl

/-! ## The proof data -/

/-- The arrays as the region finds them; after the body at position t the image window at its block and the output
    window at the running row; the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => accAt V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = accAt V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 2000000 in
/-- The body at any position, by the tile's place in its batch entry: the invariant hands the body the scratch at the
    row the position before left (at anything before the very first position), and takes it back at this position's
    row; at a batch entry's last tile the output window ends at that row, elsewhere it is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (st0_0 t) fullShare ((dat0 V c).after 0 t) from by
    unfold Dat.leavesExact; rw [liveAt0_0 t], after0_0]
  by_cases hl : t.val % 8 = 7
  · -- the last tile of a batch entry
    have hL : isLast (grid0.coords t) := (hLast t).mpr hl
    have hF : ¬ isFirst (grid0.coords t) := fun h => by have := (hFirst t).mp h; omega
    have hz : t.val ≠ 0 := by omega
    rw [show (dat0 V c).leavesExact 1 t = owns (c : Thread nD τ) (st0_1 t) fullShare ((dat0 V c).after 1 t) from by
      unfold Dat.leavesExact; rw [liveAt0_1 t hL], after0_1]
    rw [accAt_next V c t (by omega), PhiS_castSucc V c t, PhiS_pos V c _ _ hz]
    iintro ⟨⟨⟨HS, Hrest⟩, Hg⟩, Ho, ⟨%d0, H0⟩, ⟨%d1, H1⟩⟩
    iapply (sound_last c Set.univ (grid0.coords t) hF hL _ _ _ _ _ _ (iblk0 V c 0 t) _ _)
    isplitl [H0]; · iexact H0
    isplitl [H1]; · iexists _; iexact H1
    isplitl [HS]; · iexact HS
    iintro ⟨H0, H1, HS⟩
    isplitl [HS Hrest Hg]
    · isplitl [HS Hrest]
      · isplitl [HS]; · iexact HS
        iexact Hrest
      iexact Hg
    isplitl [Ho]; · iexact Ho
    isplitl [H0]; · iexact H0
    iexact H1
  · have hL : ¬ isLast (grid0.coords t) := fun h => hl ((hLast t).mp h)
    rw [Dat.leavesExact_idle (dat0 V c) 1 t (idleAt0_1 t hL) (noFlush0_1 t hL)]
    by_cases hf : t.val % 8 = 0
    · -- the first tile of a batch entry
      have hF : isFirst (grid0.coords t) := (hFirst t).mpr hf
      rw [accAt_first V c t hf]
      by_cases hz : t.val = 0
      · rw [PhiS_castSucc V c t, PhiS_zero V c _ _ hz, PhiA0_eq]
        iintro ⟨⟨⟨HS, Hrest⟩, Hg⟩, Ho, ⟨%d0, H0⟩, ⟨%d1, H1⟩⟩
        iapply (sound_first c Set.univ (grid0.coords t) hF hL _ _ _ _ _ _ (iblk0 V c 0 t) _ _)
        isplitl [H0]; · iexact H0
        isplitl [H1]; · iexact H1
        isplitl [HS]; · iexact HS
        iintro ⟨H0, H1, HS⟩
        isplitl [HS Hrest Hg]
        · isplitl [HS Hrest]
          · isplitl [HS]; · iexact HS
            iexact Hrest
          iexact Hg
        isplitl [Ho]; · iexact Ho
        isplitl [H0]; · iexact H0
        iexists _; iexact H1
      · rw [PhiS_castSucc V c t, PhiS_pos V c _ _ hz]
        iintro ⟨⟨⟨HS, Hrest⟩, Hg⟩, Ho, ⟨%d0, H0⟩, ⟨%d1, H1⟩⟩
        iapply (sound_first c Set.univ (grid0.coords t) hF hL _ _ _ _ _ _ (iblk0 V c 0 t) _ _)
        isplitl [H0]; · iexact H0
        isplitl [H1]; · iexact H1
        isplitl [HS]; · iexists _; iexact HS
        iintro ⟨H0, H1, HS⟩
        isplitl [HS Hrest Hg]
        · isplitl [HS Hrest]
          · isplitl [HS]; · iexact HS
            iexact Hrest
          iexact Hg
        isplitl [Ho]; · iexact Ho
        isplitl [H0]; · iexact H0
        iexists _; iexact H1
    · -- a middle tile
      have hF : ¬ isFirst (grid0.coords t) := fun h => hf ((hFirst t).mp h)
      have hz : t.val ≠ 0 := fun e => hf (by rw [e])
      rw [accAt_next V c t hf, PhiS_castSucc V c t, PhiS_pos V c _ _ hz]
      iintro ⟨⟨⟨HS, Hrest⟩, Hg⟩, Ho, ⟨%d0, H0⟩, ⟨%d1, H1⟩⟩
      iapply (sound_mid c Set.univ (grid0.coords t) hF hL _ _ _ _ _ _ (iblk0 V c 0 t) _ _ _)
      isplitl [H0]; · iexact H0
      isplitl [H1]; · iexact H1
      isplitl [HS]; · iexact HS
      iintro ⟨H0, H1, HS⟩
      isplitl [HS Hrest Hg]
      · isplitl [HS Hrest]
        · isplitl [HS]; · iexact HS
          iexact Hrest
        iexact Hg
      isplitl [Ho]; · iexact Ho
      isplitl [H0]; · iexact H0
      iexists _; iexact H1

/-- The library's body obligation, at every position. -/
theorem body_obligation0 (c : Dev nD) : BodyObligation (dat0 (F := F) V c) (defs₀ (F := F)) Variants.none () Set.univ := fun t => by
  rw [bigSep_W0, bigSep_W0]
  exact sound_body0 V c t

/-! ## In and out of the invariant -/

theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last position the invariant gives back what the launch handed over: the scratch row's name is
    forgotten. -/
theorem hout0 (c : Dev nD) : (dat0 V c).Φ (Fin.last cfg0.N) ⊢ Pipeline.ΦA spec0 c := by
  have ht : (Fin.last cfg0.N).val ≠ 0 := by rw [Fin.val_last]; have : cfg0.N = 128 := N_0; omega
  rw [show (dat0 V c).Φ (Fin.last cfg0.N) = PhiS V c (Fin.last cfg0.N).val (Nat.le_of_lt_succ (Fin.last cfg0.N).isLt) from rfl,
    PhiS_pos V c _ _ ht, PhiA0_eq]
  iintro ⟨⟨HS, Hrest⟩, Hg⟩
  isplitl [HS Hrest]
  · isplitl [HS]; · iexists _; iexact HS
    iexact Hrest
  iexact Hg

end Cert.KernelIdeal.Pool

end
-- ==== Proof.GateBody.lean ====
/-
  The gating region's body, at either instance: one grid point multiplies a block of 16 image rows of one
  batch entry, entry by entry, with that batch entry's gate row broadcast over the rows and columns.
-/
import proofs.«156691_j13735305412823_1_alg».proof.Proof.Gen.KernelIdeal.Launch
import proofs.«156691_j13735305412823_1_alg».proof.Proof.Gen.KernelIdeal.Skeleton
import proofs.«156691_j13735305412823_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]

local notation "𝕄" => MT nD τ sig Unit (Elt F) ℕ (UR sig nD τ) ℕ

/-- The whole 1×16×256×256 block, and the whole 1×1×1×256 gate row, as rectangles. -/
abbrev rBlk : Rect S1x16x256x256 := Rect.unit (s := S1x16x256x256) ![0, 0, 0, 0] S1x16x256x256.size inb_S1x16x256x256_S1x16x256x256_0_0_0_0
abbrev rRow : Rect S1x1x1x256 := Rect.unit (s := S1x1x1x256) ![0, 0, 0, 0] S1x1x1x256.size inb_S1x1x1x256_S1x1x1x256_0_0_0_0

/-- What the body leaves in the output block: the image block times the broadcast gate row. -/
def gated (x : Vec F S1x16x256x256 .f32) (g : Vec F S1x1x1x256 .f32) : Vec F S1x16x256x256 .f32 :=
  View.canon [⟨rBlk, k1_pay1 (View.ld g rRow) (View.ld x rBlk)⟩]

/-- The single store covers the output block. -/
theorem gated_cover (p0 : Vec F S1x16x256x256 .f32) (y : S1x16x256x256.Idx) :
    ∃ pc ∈ ([⟨rBlk, p0⟩] : List (View.Piece (Elt F) S1x16x256x256 .f32)), y ∈ pc.1.set :=
  View.cover_of_tiled [⟨rBlk, p0⟩] S1x16x256x256.size (by rfl) y

set_option maxHeartbeats 1000000 in
/-- The body on whole staging buffers: the image block and the gate row are read and kept, the output block ends at
    their product. -/
theorem sound_mul (c : Dev nD) (E : Set ℕ) (i : grid1.Coords)
    (arg2 : Memref sig .tc .vmem S1x16x256x256 .f32) (harg2 : arg2.IsWhole) (arg3 : Memref sig .tc .vmem S1x1x1x256 .f32) (harg3 : arg3.IsWhole)
    (arg4 : Memref sig .tc .vmem S1x16x256x256 .f32) (harg4 : arg4.IsWhole)
    (x : Vec F S1x16x256x256 .f32) (g : Vec F S1x1x1x256 .f32) (K : PUnit → sProp 𝕄) :
    iprop(owns (c : Thread nD τ) arg2 fullShare x ∗ owns (c : Thread nD τ) arg3 fullShare g ∗ (∃ d, owns (c : Thread nD τ) arg4 fullShare d)
        ∗ (iprop(owns (c : Thread nD τ) arg2 fullShare x ∗ owns (c : Thread nD τ) arg3 fullShare g ∗ owns (c : Thread nD τ) arg4 fullShare (gated x g)) -∗ K ⟨⟩))
      ⊢ wp frame (wpE (defs₀ (F := F)) Variants.none c none) E (cc1__mul_kernel i arg2 harg2 arg3 harg3 arg4 harg4) K := by
  simp only [cc1__mul_kernel_eq_skeleton]; unfold cc1__mul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (gated_cover _)

end Cert.KernelIdeal.Gate

end
-- ==== Proof.GateRegion.lean ====
/-
  The gating region as a pipeline: the proof data and the body obligation, at either instance, over the buffer
  contents the region is entered with. At grid point t the image window holds block t of the image, the gate window
  the gate row of the point's batch entry (fetched at the entry's first tile, in place afterwards), and the body
  leaves their product in the output window.
-/
import proofs.«156691_j13735305412823_1_alg».proof.Proof.GateBody

set_option maxRecDepth 16384

noncomputable section

namespace Cert.KernelIdeal.Gate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: unfetched, its
    block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The proof data: the arrays as the region finds them; after the body at point t the two inputs at their blocks
    and the output at their product; the scoped rest and the generator register untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => gated (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = gated (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_mul c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Gate

end
-- ==== Proof.Run.lean ====
/-
  The run of the whole program, at either instance: @main is the pooling region, five stretches of host operations,
  and the gating region. The buffer contents are followed from boundary to boundary — a region leaves in each of its
  arrays what its write-backs fold to and every other buffer as entered; a host stretch leaves what its operations
  compute — and every weakly fair execution from a memory m ends with every unscoped buffer at the last boundary's
  contents. The frame (the arguments end as launched) and the result array's contents are read off that.
-/
import proofs.«156691_j13735305412823_1_alg».proof.Proof.PoolRegion
import proofs.«156691_j13735305412823_1_alg».proof.Proof.GateRegion
import proofs.«156691_j13735305412823_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m ((c : Dev nD), b)
abbrev VV0 : (c : Dev nD) → (b : Ref sig .tc) → Buf (Elt F) ((c : Thread nD τ).loc b) := fun c b => W0 m c b
/-- After the pooling region: its arrays at what its write-backs leave, every other buffer as entered. -/
def W1 (c : Dev nD) : Valuation τ sig (Elt F) :=
  Pipeline.withArrays spec0 c (W0 m c) fun w => (Pool.dat0 (VV0 m) c).arrAt w cfg0.N
theorem W1_arr (c : Dev nD) (w : Fin cfg0.W) :
    W1 m c (Proc.devRef .tc (Pipeline.arrRef spec0 w)) = (Pool.dat0 (VV0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev VV1 : (c : Dev nD) → (b : Ref sig .tc) → Buf (Elt F) ((c : Thread nD τ).loc b) := fun c b => W1 m c b
theorem hF0 (c : Dev nD) (w : Fin cfg0.W) : (Pool.dat0 (VV0 m) c).arrAt w cfg0.N = VV1 m c (Pipeline.arrRef spec0 w) :=
  (W1_arr m c w).symm
theorem hrest0 (c : Dev nD) : ∀ b, b ∉ Finset.univ.image (Pipeline.arrRef spec0) → VV1 m c b = VV0 m c b :=
  fun b hb => W1_of_ne m c b fun w e => hb (Finset.mem_image.mpr ⟨w, Finset.mem_univ _, e⟩)

/-- After each of the five host stretches. -/
abbrev W2 : Dev nD → Valuation τ sig (Elt F) := fun c => StableHlo.after hostOps1 (W1 m c)
abbrev W3 : Dev nD → Valuation τ sig (Elt F) := fun c => StableHlo.after hostOps1_1 (W2 m c)
abbrev W4 : Dev nD → Valuation τ sig (Elt F) := fun c => StableHlo.after hostOps1_2 (W3 m c)
abbrev W5 : Dev nD → Valuation τ sig (Elt F) := fun c => StableHlo.after hostOps1_3 (W4 m c)
abbrev W6 : Dev nD → Valuation τ sig (Elt F) := fun c => StableHlo.after hostOps1_4 (W5 m c)
abbrev VV6 : (c : Dev nD) → (b : Ref sig .tc) → Buf (Elt F) ((c : Thread nD τ).loc b) := fun c b => W6 m c b
/-- After the gating region. -/
def W7 (c : Dev nD) : Valuation τ sig (Elt F) :=
  Pipeline.withArrays spec1 c (W6 m c) fun w => (Gate.dat1 (VV6 m) c).arrAt w cfg1.N
theorem W7_arr (c : Dev nD) (w : Fin cfg1.W) :
    W7 m c (Proc.devRef .tc (Pipeline.arrRef spec1 w)) = (Gate.dat1 (VV6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev VV7 : (c : Dev nD) → (b : Ref sig .tc) → Buf (Elt F) ((c : Thread nD τ).loc b) := fun c b => W7 m c b
theorem hF1 (c : Dev nD) (w : Fin cfg1.W) : (Gate.dat1 (VV6 m) c).arrAt w cfg1.N = VV7 m c (Pipeline.arrRef spec1 w) :=
  (W7_arr m c w).symm
theorem hrest1 (c : Dev nD) : ∀ b, b ∉ Finset.univ.image (Pipeline.arrRef spec1) → VV7 m c b = VV6 m c b :=
  fun b hb => W7_of_ne m c b fun w e => hb (Finset.mem_image.mpr ⟨w, Finset.mem_univ _, e⟩)

/-! ## A buffer no host stretch writes keeps its contents across the five stretches -/

theorem W6_of (c : Dev nD) (r : Ref sig .tc) (h1 : r ∉ hostOps1_W) (h2 : r ∉ hostOps1_1_W) (h3 : r ∉ hostOps1_2_W)
    (h4 : r ∉ hostOps1_3_W) (h5 : r ∉ hostOps1_4_W) : W6 m c r = W1 m c r :=
  (StableHlo.after_of_writes_sub hostOps1_4 _ hostOps1_4_writes h5).trans <|
  (StableHlo.after_of_writes_sub hostOps1_3 _ hostOps1_3_writes h4).trans <|
  (StableHlo.after_of_writes_sub hostOps1_2 _ hostOps1_2_writes h3).trans <|
  (StableHlo.after_of_writes_sub hostOps1_1 _ hostOps1_1_writes h2).trans <|
  (StableHlo.after_of_writes_sub hostOps1 _ hostOps1_writes h1)

/-- The image is an input of both regions and no stretch writes it: it ends as launched. -/
theorem W7_main_arg0 (c : Dev nD) : W7 m c (Proc.devRef .tc main_arg0) = m ((c : Thread nD τ).loc main_arg0) :=
  calc W7 m c (Proc.devRef .tc main_arg0)
    _ = W6 m c (Proc.devRef .tc main_arg0) := (W7_arr m c 0).trans (((Gate.dat1 (VV6 m) c).arrAt_in 0 rfl _).trans (Gate.A_eq1 (VV6 m) c 0))
    _ = W1 m c (Proc.devRef .tc main_arg0) := W6_of m c main_arg0 (by decide) (by decide) (by decide) (by decide) (by decide)
    _ = W0 m c (Proc.devRef .tc main_arg0) := (W1_arr m c 0).trans (((Pool.dat0 (VV0 m) c).arrAt_in 0 rfl _).trans (Pool.A_eq0 (VV0 m) c 0))
    _ = m ((c : Thread nD τ).loc main_arg0) := rfl
/-- The weights are no region's array and no stretch writes them: they end as launched. -/
theorem W7_main_arg1 (c : Dev nD) : W7 m c (Proc.devRef .tc main_arg1) = m ((c : Thread nD τ).loc main_arg1) :=
  calc W7 m c (Proc.devRef .tc main_arg1)
    _ = W6 m c (Proc.devRef .tc main_arg1) := W7_of_ne m c main_arg1 (by decide)
    _ = W1 m c (Proc.devRef .tc main_arg1) := W6_of m c main_arg1 (by decide) (by decide) (by decide) (by decide) (by decide)
    _ = W0 m c (Proc.devRef .tc main_arg1) := W1_of_ne m c main_arg1 (by decide)
    _ = m ((c : Thread nD τ).loc main_arg1) := rfl
theorem W7_main_arg2 (c : Dev nD) : W7 m c (Proc.devRef .tc main_arg2) = m ((c : Thread nD τ).loc main_arg2) :=
  calc W7 m c (Proc.devRef .tc main_arg2)
    _ = W6 m c (Proc.devRef .tc main_arg2) := W7_of_ne m c main_arg2 (by decide)
    _ = W1 m c (Proc.devRef .tc main_arg2) := W6_of m c main_arg2 (by decide) (by decide) (by decide) (by decide) (by decide)
    _ = W0 m c (Proc.devRef .tc main_arg2) := W1_of_ne m c main_arg2 (by decide)
    _ = m ((c : Thread nD τ).loc main_arg2) := rfl
theorem W7_main_arg3 (c : Dev nD) : W7 m c (Proc.devRef .tc main_arg3) = m ((c : Thread nD τ).loc main_arg3) :=
  calc W7 m c (Proc.devRef .tc main_arg3)
    _ = W6 m c (Proc.devRef .tc main_arg3) := W7_of_ne m c main_arg3 (by decide)
    _ = W1 m c (Proc.devRef .tc main_arg3) := W6_of m c main_arg3 (by decide) (by decide) (by decide) (by decide) (by decide)
    _ = W0 m c (Proc.devRef .tc main_arg3) := W1_of_ne m c main_arg3 (by decide)
    _ = m ((c : Thread nD τ).loc main_arg3) := rfl

/-! ## The proof data family and what rides beside the buffers -/

/-- Each region's proof data at its entry contents. -/
def pdats : (p : Fin 2) → (c : Dev nD) → Dat τ (Elt F) Unit ℕ (UR sig nD τ) ℕ (Pipeline.pin (pcfgs (F := F)) adm p) c
  | ⟨0, _⟩ => fun c => Pool.dat0 (VV0 m) c
  | ⟨1, _⟩ => fun c => Gate.dat1 (VV6 m) c
abbrev 𝒱₀ : Variants := Variants.none
abbrev L : GSem nD τ sig → Finset Unit := fun _ => ∅
abbrev lv : GSem nD τ sig → Unit → ℕ := fun _ _ => 0
/-- Beside the buffers through every segment: the generator register at some state, and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- The pooling region: entered with every unscoped buffer at the launch contents, left with them at the next
    boundary's. Its arrays are split out of the unscoped buffers and put back at the exit contents; the generator
    register and the scoped rest go into the invariant (which names the scratch row from the first position on) and
    come back out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Pool.body_obligation0 (VV0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VV0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VV0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = (Pool.dat0 (VV0 m) c).Φ (Fin.last cfg0.N) from rfl]
    refine (Pool.hout0 (VV0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VV0 m c) (VV1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The gating region: entered with every unscoped buffer at the contents after the last host stretch, left with them
    at the last boundary's; the generator register and the scoped rest through the invariant unchanged. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Gate.body_obligation1 (VV6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VV6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VV6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VV6 m c) (VV7 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev psegs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .host (hseg hostOps1_3 hostOps1_3_sub hostOps1_3_fresh (W4 m)),
    .host (hseg hostOps1_4 hostOps1_4_sub hostOps1_4_fresh (W5 m)),
    .region (reg1 m) ]

set_option backward.isDefEq.respectTransparency.types false in
/-- THE RUN. From any memory with zero counters every weakly fair execution of @main on the TensorCores terminates,
    nothing faulting, and in every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (psegs m)
    (fun c Q => by
      rewrite [main_chain c, Pipeline.Seg.run_eq_chain,
        show (psegs m).map Pipeline.Seg.prog = [
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()) ] from rfl]
      exact .rfl)
    (by simp only [psegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-- THE FRAME, at either instance: the four arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c)⟩) (run_all m ρ)

/-- The result array after the run: what the gating region's write-backs fold to, beside the frame. -/
theorem run_result : θ_run defs (onTc (τ := τ) (main (F := F))) ⟨m, fun _ => 0, ρ⟩ (fun r => ∀ c : Dev nD,
      r.2.mem ((c.tc : Thread nD τ).loc main_v24) = (Gate.dat1 (VV6 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v24 (by decide))).trans (W7_arr m c 2),
     (h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c)⟩) (run_all m ρ)

end Cert.KernelIdeal.Run

end
-- ==== Proof.HostChain.lean ====
/-
  The host operations between the two regions, read as values, at either instance. From the pooled array p (one total
  per batch entry and channel) they compute: the mean p · 2⁻¹⁶; a first matrix product with w0; the leaky rectifier
  (y where y ≥ 0, else 0.1 · y); a second matrix product with w1; the channel multiplier max(1 + w_mult, 0) broadcast
  over the batch; and the logistic function 1 / (1 + exp(−·)). Everything from the mean on is kept as ONE function,
  gateOf, which is never opened: the reference applies the same operations to its own mean.
-/
import proofs.«156691_j13735305412823_1_alg».proof.Proof.Run
import Idealize.ShloMosaic.Lib.StableHlo.Run

set_option maxRecDepth 16384

noncomputable section

open Idealize.ShloMosaic Idealize.ShloMosaic.TcCoe Idealize.SL.Sem

namespace Cert.KernelIdeal.Host

open Cert.KernelIdeal Cert.KernelIdeal.Gen Cert.KernelIdeal.Run

variable {F : FTy → Type} [FloatOps F]

/-! ## The chain, as functions -/

/-- The first matrix product. -/
def hidden (mean : FVec F S16x256 .f32) (w0 : FVec F S256x64 .f32) : FVec F S16x64 .f32 :=
  Host.dotGeneral dot_S16x256_S256x64_S16x64_1_0_0_1_n_n none mean w0
/-- The leaky rectifier with slope 0.1. -/
def leaky (y : FVec F S16x64 .f32) : FVec F S16x64 .f32 :=
  select (cmpf .oge y (broadcastInDim S16x64 ![] bcast_S_S16x64 (constant S_ .f32 0x00000000#32))) y
    (mulf (broadcastInDim S16x64 ![] bcast_S_S16x64 (constant S_ .f32 0x3DCCCCCD#32)) y)
/-- The second matrix product. -/
def excite (z : FVec F S16x64 .f32) (w1 : FVec F S64x256 .f32) : FVec F S16x256 .f32 :=
  Host.dotGeneral dot_S16x64_S64x256_S16x256_1_0_0_1_n_n none z w1
/-- The channel multiplier max(1 + w_mult, 0). -/
def chanMul (wm : FVec F S256 .f32) : FVec F S256 .f32 :=
  maximumf (addf (broadcastInDim S256 ![] bcast_S_S256 (constant S_ .f32 0x3F800000#32)) wm)
    (broadcastInDim S256 ![] bcast_S_S256 (constant S_ .f32 0x00000000#32))
/-- The logistic function of the multiplier (broadcast over the batch) times the second product. -/
def logistic (r : FVec F S256 .f32) (o : FVec F S16x256 .f32) : FVec F S16x256 .f32 :=
  Host.divf (broadcastInDim S16x256 ![] bcast_S_S16x256 (constant S_ .f32 0x3F800000#32))
    (addf (broadcastInDim S16x256 ![] bcast_S_S16x256 (constant S_ .f32 0x3F800000#32))
      (Host.exp (Host.negf (mulf
        (broadcastInDim S16x256 ![0, 1] bcast_S1x256_S16x256_0_1 (broadcastInDim S1x256 ![1] bcast_S256_S1x256_1 r)) o))))
/-- From the mean to the gate. -/
def gateOf (mean : FVec F S16x256 .f32) (w0 : FVec F S256x64 .f32) (w1 : FVec F S64x256 .f32) (wm : FVec F S256 .f32) :
    FVec F S16x256 .f32 :=
  logistic (chanMul wm) (excite (leaky (hidden mean w0)) w1)
/-- The mean, from the pooled array: its entries laid out as [16, 256], times 2⁻¹⁶. -/
def meanOf (p : FVec F S16x1x1x256 .f32) : FVec F S16x256 .f32 :=
  mulf (shapeCast S16x256 p shapeCasts_S16x1x1x256_S16x256)
    (broadcastInDim S16x256 ![] bcast_S_S16x256 (constant S_ .f32 0x37800000#32))

/-! ## Each stretch, over any contents before it -/

variable (U : Valuation τ sig (Elt F))

theorem last_stretch : StableHlo.after hostOps1_4 U (Proc.devRef .tc main_v23)
    = shapeCast S16x1x1x256 (logistic (U (Proc.devRef .tc main_v13)) (U (Proc.devRef .tc main_v10))) shapeCasts_S16x256_S16x1x1x256 := by
  after_results <;> rfl
theorem relu_stretch : StableHlo.after hostOps1_3 U (Proc.devRef .tc main_v13)
    = maximumf (U (Proc.devRef .tc main_v12)) (broadcastInDim S256 ![] bcast_S_S256 (constant S_ .f32 0x00000000#32)) := by
  after_results <;> rfl
theorem third_stretch_prod : StableHlo.after hostOps1_2 U (Proc.devRef .tc main_v10)
    = excite (U (Proc.devRef .tc main_v9)) (U (Proc.devRef .tc main_arg2)) := by
  after_results <;> rfl
theorem third_stretch_mult : StableHlo.after hostOps1_2 U (Proc.devRef .tc main_v12)
    = addf (broadcastInDim S256 ![] bcast_S_S256 (constant S_ .f32 0x3F800000#32)) (U (Proc.devRef .tc main_arg3)) := by
  after_results <;> rfl
theorem where_stretch : StableHlo.after hostOps1_1 U (Proc.devRef .tc main_v9)
    = select (U (Proc.devRef .tc main_v6)) (U (Proc.devRef .tc main_v4)) (U (Proc.devRef .tc main_v8)) := by
  after_results <;> rfl
theorem first_stretch_prod : StableHlo.after hostOps1 U (Proc.devRef .tc main_v4)
    = hidden (meanOf (U (Proc.devRef .tc main_v0))) (U (Proc.devRef .tc main_arg1)) := by
  after_results <;> rfl
theorem first_stretch_cmp : StableHlo.after hostOps1 U (Proc.devRef .tc main_v6)
    = cmpf .oge (hidden (meanOf (U (Proc.devRef .tc main_v0))) (U (Proc.devRef .tc main_arg1)))
        (broadcastInDim S16x64 ![] bcast_S_S16x64 (constant S_ .f32 0x00000000#32)) := by
  after_results <;> rfl
theorem first_stretch_scaled : StableHlo.after hostOps1 U (Proc.devRef .tc main_v8)
    = mulf (broadcastInDim S16x64 ![] bcast_S_S16x64 (constant S_ .f32 0x3DCCCCCD#32))
        (hidden (meanOf (U (Proc.devRef .tc main_v0))) (U (Proc.devRef .tc main_arg1))) := by
  after_results <;> rfl

/-! ## The gate array the gating region is entered with -/

variable (m : (ℓ : Loc nD τ sig) → Buf (Elt F) ℓ)

/-- A weight array reaches any boundary as launched. -/
theorem W1_arg1 (c : Dev nD) : W1 m c (Proc.devRef .tc main_arg1) = m ((c : Thread nD τ).loc main_arg1) := W1_of_ne m c main_arg1 (by decide)
theorem W1_arg2 (c : Dev nD) : W1 m c (Proc.devRef .tc main_arg2) = m ((c : Thread nD τ).loc main_arg2) := W1_of_ne m c main_arg2 (by decide)
theorem W1_arg3 (c : Dev nD) : W1 m c (Proc.devRef .tc main_arg3) = m ((c : Thread nD τ).loc main_arg3) := W1_of_ne m c main_arg3 (by decide)

/-- The gate array before the gating region is the chain applied to what the pooling region left and the weights. -/
theorem gate_eq (c : Dev nD) : W6 m c (Proc.devRef .tc main_v23)
    = shapeCast S16x1x1x256 (gateOf (meanOf (W1 m c (Proc.devRef .tc main_v0))) (m ((c : Thread nD τ).loc main_arg1))
        (m ((c : Thread nD τ).loc main_arg2)) (m ((c : Thread nD τ).loc main_arg3))) shapeCasts_S16x256_S16x1x1x256 := by
  have e6 : W6 m c (Proc.devRef .tc main_v23)
      = shapeCast S16x1x1x256 (logistic (W5 m c (Proc.devRef .tc main_v13)) (W5 m c (Proc.devRef .tc main_v10))) shapeCasts_S16x256_S16x1x1x256 :=
    last_stretch (W5 m c)
  have e5a : W5 m c (Proc.devRef .tc main_v13)
      = maximumf (W4 m c (Proc.devRef .tc main_v12)) (broadcastInDim S256 ![] bcast_S_S256 (constant S_ .f32 0x00000000#32)) :=
    relu_stretch (W4 m c)
  have e5b : W5 m c (Proc.devRef .tc main_v10) = W4 m c (Proc.devRef .tc main_v10) :=
    StableHlo.after_of_writes_sub hostOps1_3 _ hostOps1_3_writes (by decide)
  have e4a : W4 m c (Proc.devRef .tc main_v12)
      = addf (broadcastInDim S256 ![] bcast_S_S256 (constant S_ .f32 0x3F800000#32)) (W3 m c (Proc.devRef .tc main_arg3)) :=
    third_stretch_mult (W3 m c)
  have e4b : W4 m c (Proc.devRef .tc main_v10) = excite (W3 m c (Proc.devRef .tc main_v9)) (W3 m c (Proc.devRef .tc main_arg2)) :=
    third_stretch_prod (W3 m c)
  have e3 : W3 m c (Proc.devRef .tc main_v9)
      = select (W2 m c (Proc.devRef .tc main_v6)) (W2 m c (Proc.devRef .tc main_v4)) (W2 m c (Proc.devRef .tc main_v8)) :=
    where_stretch (W2 m c)
  have e3a : W3 m c (Proc.devRef .tc main_arg3) = m ((c : Thread nD τ).loc main_arg3) :=
    (StableHlo.after_of_writes_sub hostOps1_1 _ hostOps1_1_writes (by decide)).trans <|
    (StableHlo.after_of_writes_sub hostOps1 _ hostOps1_writes (by decide)).trans (W1_arg3 m c)
  have e3b : W3 m c (Proc.devRef .tc main_arg2) = m ((c : Thread nD τ).loc main_arg2) :=
    (StableHlo.after_of_writes_sub hostOps1_1 _ hostOps1_1_writes (by decide)).trans <|
    (StableHlo.after_of_writes_sub hostOps1 _ hostOps1_writes (by decide)).trans (W1_arg2 m c)
  have e2a : W2 m c (Proc.devRef .tc main_v4)
      = hidden (meanOf (W1 m c (Proc.devRef .tc main_v0))) (W1 m c (Proc.devRef .tc main_arg1)) := first_stretch_prod (W1 m c)
  have e2b : W2 m c (Proc.devRef .tc main_v6)
      = cmpf .oge (hidden (meanOf (W1 m c (Proc.devRef .tc main_v0))) (W1 m c (Proc.devRef .tc main_arg1)))
          (broadcastInDim S16x64 ![] bcast_S_S16x64 (constant S_ .f32 0x00000000#32)) := first_stretch_cmp (W1 m c)
  have e2c : W2 m c (Proc.devRef .tc main_v8)
      = mulf (broadcastInDim S16x64 ![] bcast_S_S16x64 (constant S_ .f32 0x3DCCCCCD#32))
          (hidden (meanOf (W1 m c (Proc.devRef .tc main_v0))) (W1 m c (Proc.devRef .tc main_arg1))) := first_stretch_scaled (W1 m c)
  rw [e6, e5a, e5b, e4a, e4b, e3, e3a, e3b, e2a, e2b, e2c, W1_arg1]
  rfl

end Cert.KernelIdeal.Host

end
-- ==== Proof.PoolValue.lean ====
/-
  The pooling region's result, over the extended reals: after the region, entry (b, 0, 0, ch) of the pooled array is
  the sum of the image's entries (b, h, w, ch) over all h and w.
-/
import proofs.«156691_j13735305412823_1_alg».proof.Proof.PoolRegion
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Pool

open Cert.KernelIdeal Cert.KernelIdeal.Gen

variable (V : (c : Dev nD) → (b : Ref sig .tc) → Buf (Elt Ideal) ((c : Thread nD τ).loc b))

/-- The image as the region finds it, and the pooled array as the region leaves it, at their literal types. -/
abbrev img (c : Dev nD) : FVec Ideal S16x256x256x256 .f32 := V c main_arg0
abbrev pooledArr (c : Dev nD) : FVec Ideal S16x1x1x256 .f32 := (dat0 (F := Ideal) V c).arrAt 1 cfg0.N

/-! ## The running row's step and start, at a channel -/

/-- One step of the running row at channel ch: the row before, plus the tile's sum over its 256 columns and 32 rows. -/
theorem accNext_apply (x : FVec Ideal S1x32x256x256 .f32) (a : FVec Ideal S1x1x1x256 .f32) (ch : Fin 256) :
    k0_pay2 x a (ix4 0 0 0 ch) = a (ix4 0 0 0 ch) + ∑ w : Fin 256, ∑ h : Fin 32, x (ix4 0 h w ch) := by
  unfold k0_pay2
  dsimp only
  rw [shapeCast_self, addf_apply]
  congr 1
  refine (shapeCast_apply _ _ (ix4 0 0 0 ch) (ix2 0 ch) ?_).trans ?_
  · rw [Shape.rowMajor_val_two, Shape.rowMajor_val_four]
    show (0 : Nat) * 256 + ch.val = (((0 : Nat) * 1 + 0) * 1 + 0) * 256 + ch.val
    omega
  refine (Ideal.multiReduction_add_single _ _ reduces_S1x256x256_S1x256 _ _ (ix2 0 ch)).trans ?_
  show ∑ w : Fin 256, _ = _
  refine Finset.sum_congr rfl fun w _ => ?_
  refine (Ideal.multiReduction_add_single x _ reduces_S1x32x256x256_S1x256x256 _ _ _).trans ?_
  show ∑ h : Fin 32, _ = _
  refine Finset.sum_congr rfl fun h _ => congrArg x ?_
  funext e
  apply Fin.ext
  match e with
  | ⟨0, _⟩ => rfl
  | ⟨1, _⟩ => rfl
  | ⟨2, _⟩ => rfl
  | ⟨3, _⟩ => rfl

/-- The row a batch entry starts from is zero at every channel. -/
theorem accZero_apply (ch : Fin 256) : (k0_pay1 (F := Ideal)) (ix4 0 0 0 ch) = 0 := by
  unfold k0_pay1
  rw [shapeCast_self, broadcast_apply]
  exact Ideal.ofBits_zero_f32

/-! ## The two windows' index maps on the grid -/

/-- At position t the image window is at block (t / 8, t % 8, 0, 0) and the output window at block (t / 8, 0, 0, 0). -/
theorem idx_facts : ∀ t : Fin cfg0.N,
    win0_0.index t (0 : Fin 4) = t.val / 8 ∧ win0_0.index t (1 : Fin 4) = t.val % 8
    ∧ win0_0.index t (2 : Fin 4) = 0 ∧ win0_0.index t (3 : Fin 4) = 0
    ∧ win0_1.index t (0 : Fin 4) = t.val / 8 ∧ win0_1.index t (1 : Fin 4) = 0
    ∧ win0_1.index t (2 : Fin 4) = 0 ∧ win0_1.index t (3 : Fin 4) = 0 :=
  (by decide +kernel : ∀ t : Fin grid0.N, _)

/-- The image block at position t, at (0, h, w, ch), is the image at (t / 8, 32 (t % 8) + h, w, ch). -/
theorem iblk_apply (c : Dev nD) (t : Fin cfg0.N) (h : Fin 32) (w ch : Fin 256) (k : S16x256x256x256.Idx)
    (hk0 : (k 0).val = t.val / 8) (hk1 : (k 1).val = 32 * (t.val % 8) + h.val) (hk2 : (k 2).val = w.val)
    (hk3 : (k 3).val = ch.val) :
    (iblk0 V c 0 t : FVec Ideal S1x32x256x256 .f32) (ix4 0 h w ch) = img V c k := by
  obtain ⟨e0, e1, e2, e3, -⟩ := idx_facts t
  unfold iblk0
  rw [View.read_apply]
  show V c main_arg0 _ = V c main_arg0 _
  congr 1
  funext a
  apply Fin.ext
  match a with
  | ⟨0, _⟩ => show win0_0.index t 0 * 1 + 1 * (0 : Nat) = (k 0).val; rw [e0, hk0]; omega
  | ⟨1, _⟩ => show win0_0.index t 1 * 32 + 1 * h.val = (k 1).val; rw [e1, hk1]; omega
  | ⟨2, _⟩ => show win0_0.index t 2 * 256 + 1 * w.val = (k 2).val; rw [e2, hk2]; omega
  | ⟨3, _⟩ => show win0_0.index t 3 * 256 + 1 * ch.val = (k 3).val; rw [e3, hk3]; omega

/-! ## From the flushed blocks to the pooled array -/

/-- The running row at equal positions is the same row. -/
theorem accAt_congr (c : Dev nD) {n n' : ℕ} (e : n = n') (hn : n < cfg0.N) (hn' : n' < cfg0.N) :
    accAt V c n hn = accAt V c n' hn' := by
  subst e; rfl

/-- The whole pooled array: entry (b, ·, ·, ch) is the running row after the last tile of batch entry b, at ch. -/
def poolG (c : Dev nD) : FVec Ideal S16x1x1x256 .f32 := fun i =>
  accAt V c (8 * (i 0).val + 7)
    (by have h : (i 0).val < 16 := (i 0).isLt
        have hN : cfg0.N = 128 := N_0
        omega)
    (ix4 0 0 0 (i 3))

/-- What a flushing position writes back is its block of that array. -/
theorem flushed_eq (c : Dev nD) (t : Fin cfg0.N) (hf : (cfg0.win 1).flush t = true) :
    (dat0 V c).flushed 1 t = ((cfg0.win 1).blk t).view.read (Elt Ideal) (poolG V c) := by
  have h7 : t.val % 8 = 7 := (flush0_1 t).mp hf
  obtain ⟨-, -, -, -, e0, e1, e2, e3⟩ := idx_facts t
  show (cfg0.win 1).cut (grid0.coords t) ((dat0 V c).after 1 t) = _
  rw [after0_1]
  funext y
  rw [View.read_apply]
  have hy0 : (y 0).val < 1 := (y 0).isLt
  have hy1 : (y 1).val < 1 := (y 1).isLt
  have hy2 : (y 2).val < 1 := (y 2).isLt
  have hE0 : ((((cfg0.win 1).blk t).view.emb y) 0).val = t.val / 8 := by
    show win0_1.index t 0 * 1 + 1 * (y 0).val = _
    rw [e0]; omega
  have hE3 : ((((cfg0.win 1).blk t).view.emb y) 3).val = (y 3).val := by
    show win0_1.index t 3 * 256 + 1 * (y 3).val = _
    rw [e3]; omega
  show accAt V c t.val t.isLt y = poolG V c (((cfg0.win 1).blk t).view.emb y)
  unfold poolG
  rw [accAt_congr V c (show 8 * ((((cfg0.win 1).blk t).view.emb y) 0).val + 7 = t.val by rw [hE0]; omega) _ t.isLt]
  congr 1
  funext a
  apply Fin.ext
  match a with
  | ⟨0, _⟩ => show (y 0).val = 0; omega
  | ⟨1, _⟩ => show (y 1).val = 0; omega
  | ⟨2, _⟩ => show (y 2).val = 0; omega
  | ⟨3, _⟩ => exact hE3.symm

/-- The last tile's position of batch entry i₀ covers every entry (i₀, ·, ·, ·) of the pooled array. -/
theorem covered (i : S16x1x1x256.Idx) :
    ∃ t : Fin cfg0.N, (cfg0.win 1).flush t = true ∧ i ∈ ((cfg0.win 1).blk t).view.set := by
  have h0 : (i 0).val < 16 := (i 0).isLt
  have h1 : (i 1).val < 1 := (i 1).isLt
  have h2 : (i 2).val < 1 := (i 2).isLt
  have h3 : (i 3).val < 256 := (i 3).isLt
  have hN : cfg0.N = 128 := N_0
  have hlt : 8 * (i 0).val + 7 < cfg0.N := by omega
  obtain ⟨-, -, -, -, e0, e1, e2, e3⟩ := idx_facts ⟨8 * (i 0).val + 7, hlt⟩
  have hd : (8 * (i 0).val + 7) / 8 = (i 0).val := by omega
  refine ⟨⟨8 * (i 0).val + 7, hlt⟩, (flush0_1 _).mpr (by show (8 * (i 0).val + 7) % 8 = 7; omega), ?_⟩
  show i ∈ ((View.whole main_v0).slice (win0_1.rect ⟨8 * (i 0).val + 7, hlt⟩)).set
  rw [View.set_slice_whole, Rect.mem_set_unit]
  intro a
  match a with
  | ⟨0, _⟩ =>
    show win0_1.index ⟨8 * (i 0).val + 7, hlt⟩ 0 * 1 ≤ (i 0).val ∧ (i 0).val < win0_1.index ⟨8 * (i 0).val + 7, hlt⟩ 0 * 1 + 1
    rw [e0]; show (8 * (i 0).val + 7) / 8 * 1 ≤ (i 0).val ∧ (i 0).val < (8 * (i 0).val + 7) / 8 * 1 + 1
    rw [hd]; omega
  | ⟨1, _⟩ =>
    show win0_1.index ⟨8 * (i 0).val + 7, hlt⟩ 1 * 1 ≤ (i 1).val ∧ (i 1).val < win0_1.index ⟨8 * (i 0).val + 7, hlt⟩ 1 * 1 + 1
    rw [e1]; omega
  | ⟨2, _⟩ =>
    show win0_1.index ⟨8 * (i 0).val + 7, hlt⟩ 2 * 1 ≤ (i 2).val ∧ (i 2).val < win0_1.index ⟨8 * (i 0).val + 7, hlt⟩ 2 * 1 + 1
    rw [e2]; omega
  | ⟨3, _⟩ =>
    show win0_1.index ⟨8 * (i 0).val + 7, hlt⟩ 3 * 256 ≤ (i 3).val ∧ (i 3).val < win0_1.index ⟨8 * (i 0).val + 7, hlt⟩ 3 * 256 + 256
    rw [e3]; omega

/-- So the pooled array is that array. -/
theorem pooled_eq (c : Dev nD) : pooledArr V c = poolG V c :=
  (dat0 V c).arrAt_eq_of_cover 1 (poolG V c) (flushed_eq V c) covered

/-! ## The eight tiles of one batch entry -/

/-- Tile j's share of batch entry b's total at channel ch: the image summed over the tile's 32 rows and all columns. -/
def tileSum (c : Dev nD) (b : Fin 16) (ch : Fin 256) (j : Fin 8) : EReal :=
  ∑ w : Fin 256, ∑ h : Fin 32,
    img V c (ix4 b ⟨32 * j.val + h.val, by have := j.isLt; have := h.isLt; omega⟩ w ch)

/-- At position 8 b + j the step adds tile j's share of batch entry b. -/
theorem tile_step (c : Dev nD) (b : Fin 16) (ch : Fin 256) (j : Fin 8) (hn : 8 * b.val + j.val < cfg0.N)
    (a : FVec Ideal S1x1x1x256 .f32) :
    accNext (iblk0 V c 0 ⟨8 * b.val + j.val, hn⟩) a (ix4 0 0 0 ch) = a (ix4 0 0 0 ch) + tileSum V c b ch j := by
  have hj : j.val < 8 := j.isLt
  refine (accNext_apply (iblk0 V c 0 ⟨8 * b.val + j.val, hn⟩) a ch).trans ?_
  congr 1
  unfold tileSum
  refine Finset.sum_congr rfl fun w _ => Finset.sum_congr rfl fun h _ => ?_
  refine iblk_apply V c ⟨8 * b.val + j.val, hn⟩ h w ch _ ?_ ?_ rfl rfl
  · show b.val = (8 * b.val + j.val) / 8
    omega
  · show 32 * j.val + h.val = 32 * ((8 * b.val + j.val) % 8) + h.val
    omega

/-- After tile j of batch entry b the running row holds, at each channel, the shares of tiles 0 … j. -/
theorem accAt_tiles (c : Dev nD) (b : Fin 16) (ch : Fin 256) :
    ∀ (j : ℕ) (hj : j < 8) (hn : 8 * b.val + j < cfg0.N),
      accAt V c (8 * b.val + j) hn (ix4 0 0 0 ch)
        = ∑ s : Fin (j + 1), tileSum V c b ch ⟨s.val, by have := s.isLt; omega⟩
  | 0, hj, hn => by
    refine (congrFun (accAt_first V c ⟨8 * b.val + 0, hn⟩ (by show (8 * b.val + 0) % 8 = 0; omega)) _).trans ?_
    refine (tile_step V c b ch ⟨0, hj⟩ hn _).trans ?_
    rw [show accZero (F := Ideal) (ix4 0 0 0 ch) = 0 from accZero_apply ch, zero_add, Fin.sum_univ_one]
    rfl
  | j + 1, hj, hn => by
    refine (congrFun (accAt_next V c ⟨8 * b.val + (j + 1), hn⟩
      (by show ¬ (8 * b.val + (j + 1)) % 8 = 0; omega)) _).trans ?_
    refine (tile_step V c b ch ⟨j + 1, hj⟩ hn _).trans ?_
    rw [Fin.sum_univ_castSucc]
    refine congrArg₂ (· + ·) ?_ rfl
    refine (congrFun (accAt_congr V c (show 8 * b.val + (j + 1) - 1 = 8 * b.val + j by omega) _
      (Nat.lt_of_succ_lt hn)) _).trans ?_
    exact accAt_tiles c b ch j (Nat.lt_of_succ_lt hj) (Nat.lt_of_succ_lt hn)

/-- A sum over the 256 rows, tile by tile: row 32 j + h is row h of tile j. -/
theorem sum_rows_by_tile {M : Type*} [AddCommMonoid M] (g : Fin 256 → M) :
    ∑ r : Fin 256, g r
      = ∑ j : Fin 8, ∑ h : Fin 32, g ⟨32 * j.val + h.val, by have := j.isLt; have := h.isLt; omega⟩ := by
  rw [← Equiv.sum_comp (finProdFinEquiv (m := 8) (n := 32)) g, Fintype.sum_prod_type]
  refine Finset.sum_congr rfl fun j _ => Finset.sum_congr rfl fun h _ => congrArg g (Fin.ext ?_)
  show h.val + 32 * j.val = 32 * j.val + h.val
  omega

/-- Entry (b, 0, 0, ch) of the pooled array is the image summed over all 256 rows and 256 columns at (b, ·, ·, ch):
    it is the running row after the eighth tile of batch entry b, the eight tiles' shares are the row sums over the
    eight runs of 32 rows, and the double sum is regrouped (only commutativity and associativity of + are used). -/
theorem pool_final_apply (c : Dev nD) (b : Fin 16) (ch : Fin 256) :
    pooledArr V c (ix4 b 0 0 ch) = ∑ h : Fin 256, ∑ w : Fin 256, img V c (ix4 b h w ch) := by
  have hN : cfg0.N = 128 := N_0
  have hb : b.val < 16 := b.isLt
  rw [pooled_eq]
  show accAt V c (8 * b.val + 7) _ (ix4 0 0 0 ch) = _
  refine (accAt_tiles V c b ch 7 (by omega) _).trans ?_
  refine Eq.trans ?_ (sum_rows_by_tile (fun r : Fin 256 => ∑ w : Fin 256, img V c (ix4 b r w ch))).symm
  show ∑ j : Fin 8, tileSum V c b ch j = _
  refine Finset.sum_congr rfl fun j _ => ?_
  unfold tileSum
  exact Finset.sum_comm

end Cert.KernelIdeal.Pool

end
-- ==== Proof.GateValue.lean ====
/-
  The gating region's result, over the extended reals: after the region, entry (b, h, w, ch) of the result array is
  the image's entry there times entry (b, 0, 0, ch) of the gate array.

  The grid is 16 × 16: position t is tile t mod 16 (16 image rows) of batch entry t / 16. At every position the
  body leaves in the result window the image block times the gate row of the position's batch entry, broadcast over
  the 16 rows and the 256 columns; the result window is written back at every position, and the 256 blocks tile the
  result array. So what each position writes back is its block of ONE whole-array function of the image and the
  gate array, and the array ends holding that function.
-/
import proofs.«156691_j13735305412823_1_alg».proof.Proof.GateRegion
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Gate

open Cert.KernelIdeal Cert.KernelIdeal.Gen

variable (V : (c : Dev nD) → (b : Ref sig .tc) → Buf (Elt Ideal) ((c : Thread nD τ).loc b))

/-- The image and the gate array as the region finds them, and the result array as it leaves it, at their literal
    types. -/
abbrev img (c : Dev nD) : FVec Ideal S16x256x256x256 .f32 := V c main_arg0
abbrev gateArr (c : Dev nD) : FVec Ideal S16x1x1x256 .f32 := V c main_v23
abbrev resultArr (c : Dev nD) : FVec Ideal S16x256x256x256 .f32 := (dat1 (F := Ideal) V c).arrAt 2 cfg1.N

/-- The zero offsets of the body's whole-buffer loads and store. -/
theorem hz4 : (![0, 0, 0, 0] : Fin 4 → Nat) = fun _ => 0 := funext fun a => by fin_cases a <;> rfl

/-! ## The body's product at one entry of the block -/

/-- Entry (p, r, q, s) of the body's product is the image block's entry there times the gate row's entry of channel
    s: the row is cast to its own shape (the identity) and broadcast along the three leading axes, on which it has
    extent 1, so the broadcast reads coordinate 0 there and the channel on the last axis. -/
theorem gate_pay_apply (g : FVec Ideal S1x1x1x256 .f32) (x : FVec Ideal S1x16x256x256 .f32)
    (p : Fin 1) (r : Fin 16) (q s : Fin 256) :
    k1_pay1 (F := Ideal) g x (ix4 p r q s) = x (ix4 p r q s) * g (ix4 0 0 0 s) := by
  unfold k1_pay1
  rw [mulf_apply]
  congr 1
  rw [shapeCast_self]
  refine broadcastTo_apply g _ (ix4 p r q s) (ix4 0 0 0 s) fun a => ?_
  match a with
  | ⟨0, _⟩ => rfl
  | ⟨1, _⟩ => rfl
  | ⟨2, _⟩ => rfl
  | ⟨3, _⟩ => rfl

/-- The same at any index y of the block: the gate row is read at y's channel. -/
theorem gate_pay_at (g : FVec Ideal S1x1x1x256 .f32) (x : FVec Ideal S1x16x256x256 .f32) (y : S1x16x256x256.Idx) :
    k1_pay1 (F := Ideal) g x y
      = x y * g (ix4 (n0 := 1) (n1 := 1) (n2 := 1) (n3 := 256) 0 0 0 ⟨(y 3).val, (y 3).isLt⟩) := by
  obtain ⟨p, r, q, s, rfl⟩ : ∃ (p : Fin 1) (r : Fin 16) (q s : Fin 256), y = ix4 p r q s :=
    ⟨y 0, y 1, y 2, y 3, eq_ix4 y⟩
  exact gate_pay_apply g x p r q s

/-! ## Where the three windows' blocks sit -/

/-- The three index maps over the grid, decided at its 256 positions. At position t the result's block index is
    (t / 16, t mod 16, 0, 0) — batch entry t / 16, tile t mod 16 —, the image's is the same, and the gate's is
    (t / 16, 0, 0, 0): the gate row of the same batch entry, whatever the tile. -/
theorem gate_index_facts : ∀ t : Fin cfg1.N,
    win1_2.index t (0 : Fin 4) = t.val / 16 ∧ win1_2.index t (1 : Fin 4) = t.val % 16
    ∧ win1_2.index t (2 : Fin 4) = 0 ∧ win1_2.index t (3 : Fin 4) = 0
    ∧ win1_0.index t (0 : Fin 4) = t.val / 16 ∧ win1_0.index t (1 : Fin 4) = t.val % 16
    ∧ win1_0.index t (2 : Fin 4) = 0 ∧ win1_0.index t (3 : Fin 4) = 0
    ∧ win1_1.index t (0 : Fin 4) = t.val / 16 ∧ win1_1.index t (1 : Fin 4) = 0
    ∧ win1_1.index t (2 : Fin 4) = 0 ∧ win1_1.index t (3 : Fin 4) = 0 :=
  (by decide +kernel : ∀ t : Fin grid1.N, _)

/-! ## The whole result array as one function of the image and the gate array -/

/-- Entry i of the gated image: the image's entry i times the gate array's entry of i's batch entry (axis 0) and
    channel (axis 3). -/
abbrev gatedImage (A : FVec Ideal S16x256x256x256 .f32) (g : FVec Ideal S16x1x1x256 .f32) :
    FVec Ideal S16x256x256x256 .f32 :=
  fun i => A i * g (ix4 (n0 := 16) (n1 := 1) (n2 := 1) (n3 := 256) ⟨(i 0).val, (i 0).isLt⟩ 0 0 ⟨(i 3).val, (i 3).isLt⟩)

/-- What position t writes back is block t of the gated image. The body's product at block index j is the image
    block's entry j times the gate row's entry of channel j 3. An element of a window's block sits in its array, on
    each axis, at block index × block extent + 1 × its coordinate in the block; by the index maps the image's block
    and the result's block sit at the same place, and entry (0, 0, 0, j 3) of the gate's block is entry
    (batch entry of j, 0, 0, channel of j) of the gate array, where "of j" is read at j's place in the result
    array. -/
theorem gate_written_eq (c : Dev nD) (t : Fin cfg1.N) :
    (dat1 (F := Ideal) V c).flushed 2 t
      = ((cfg1.win 2).blk t).view.read (Elt Ideal) (gatedImage (img V c) (gateArr V c)) := by
  show (cfg1.win 2).cut (grid1.coords t) ((dat1 (F := Ideal) V c).after 2 t) = _
  rw [after1_2]
  unfold gated
  rw [View.canon_unit_zero hz4]
  simp only [View.ld_unit_zero (S := S1x16x256x256) hz4, View.ld_unit_zero (S := S1x1x1x256) hz4]
  obtain ⟨e20, e21, e22, e23, e00, e01, e02, e03, e10, e11, e12, e13⟩ := gate_index_facts t
  funext j
  have hj0 : (j 0).val < 1 := (j 0).isLt
  have hj1 : (j 1).val < 16 := (j 1).isLt
  have hj2 : (j 2).val < 256 := (j 2).isLt
  have hj3 : (j 3).val < 256 := (j 3).isLt
  show k1_pay1 (F := Ideal) (iblk1 V c 1 t) (iblk1 V c 0 t) j
    = gatedImage (img V c) (gateArr V c) (((cfg1.win 2).blk t).view.emb j)
  refine (gate_pay_at (iblk1 V c 1 t) (iblk1 V c 0 t) j).trans ?_
  -- the image's block and the result's block sit at the same place
  have h0 : ((cfg1.win 0).blk t).view.emb j = ((cfg1.win 2).blk t).view.emb j := by
    funext a; apply Fin.ext
    match a with
    | ⟨0, _⟩ => show win1_0.index t (0 : Fin 4) * 1 + 1 * (j 0).val = win1_2.index t (0 : Fin 4) * 1 + 1 * (j 0).val; omega
    | ⟨1, _⟩ => show win1_0.index t (1 : Fin 4) * 16 + 1 * (j 1).val = win1_2.index t (1 : Fin 4) * 16 + 1 * (j 1).val; omega
    | ⟨2, _⟩ => show win1_0.index t (2 : Fin 4) * 256 + 1 * (j 2).val = win1_2.index t (2 : Fin 4) * 256 + 1 * (j 2).val; omega
    | ⟨3, _⟩ => show win1_0.index t (3 : Fin 4) * 256 + 1 * (j 3).val = win1_2.index t (3 : Fin 4) * 256 + 1 * (j 3).val; omega
  -- the gate's block is the row of j's batch entry: its entry of channel j 3 is the gate array's entry there
  have h1 : ((cfg1.win 1).blk t).view.emb (ix4 (n0 := 1) (n1 := 1) (n2 := 1) (n3 := 256) 0 0 0 ⟨(j 3).val, hj3⟩)
      = (ix4 (n0 := 16) (n1 := 1) (n2 := 1) (n3 := 256)
          ⟨(((cfg1.win 2).blk t).view.emb j 0).val, (((cfg1.win 2).blk t).view.emb j 0).isLt⟩ 0 0
          ⟨(((cfg1.win 2).blk t).view.emb j 3).val, (((cfg1.win 2).blk t).view.emb j 3).isLt⟩ : S16x1x1x256.Idx) := by
    funext a; apply Fin.ext
    match a with
    | ⟨0, _⟩ => show win1_1.index t (0 : Fin 4) * 1 + 1 * 0 = win1_2.index t (0 : Fin 4) * 1 + 1 * (j 0).val; omega
    | ⟨1, _⟩ => show win1_1.index t (1 : Fin 4) * 1 + 1 * 0 = 0; omega
    | ⟨2, _⟩ => show win1_1.index t (2 : Fin 4) * 1 + 1 * 0 = 0; omega
    | ⟨3, _⟩ => show win1_1.index t (3 : Fin 4) * 256 + 1 * (j 3).val = win1_2.index t (3 : Fin 4) * 256 + 1 * (j 3).val; omega
  show img V c (((cfg1.win 0).blk t).view.emb j)
        * gateArr V c (((cfg1.win 1).blk t).view.emb (ix4 (n0 := 1) (n1 := 1) (n2 := 1) (n3 := 256) 0 0 0 ⟨(j 3).val, hj3⟩))
      = img V c (((cfg1.win 2).blk t).view.emb j)
        * gateArr V c (ix4 (n0 := 16) (n1 := 1) (n2 := 1) (n3 := 256)
          ⟨(((cfg1.win 2).blk t).view.emb j 0).val, (((cfg1.win 2).blk t).view.emb j 0).isLt⟩ 0 0
          ⟨(((cfg1.win 2).blk t).view.emb j 3).val, (((cfg1.win 2).blk t).view.emb j 3).isLt⟩)
  rw [h0, h1]

/-! ## The result's blocks tile the array -/

/-- An index of the result array is in position t's block iff each coordinate is in the block's range on its
    axis. -/
theorem mem_result_block (t : Fin cfg1.N) (i : S16x256x256x256.Idx) :
    i ∈ ((cfg1.win 2).blk t).view.set ↔ ∀ a : Fin 4, win1_2.index t a * S1x16x256x256.size a ≤ (i a).val
      ∧ (i a).val < win1_2.index t a * S1x16x256x256.size a + S1x16x256x256.size a := by
  show i ∈ ((View.whole main_v24).slice (win1_2.rect t)).set ↔ _
  rw [View.set_slice_whole, Rect.mem_set_unit]
  exact Iff.rfl

/-- Every index i is in the block of position 16 · (i 0) + (i 1) / 16: batch entry i 0, the tile that holds row
    i 1. That position, like every position, writes the result window back. -/
theorem result_covered (i : S16x256x256x256.Idx) :
    ∃ t : Fin cfg1.N, (cfg1.win 2).flush t = true ∧ i ∈ ((cfg1.win 2).blk t).view.set := by
  have hi0 : (i 0).val < 16 := (i 0).isLt
  have hi1 : (i 1).val < 256 := (i 1).isLt
  have hi2 : (i 2).val < 256 := (i 2).isLt
  have hi3 : (i 3).val < 256 := (i 3).isLt
  have hN : cfg1.N = 256 := N_1
  obtain ⟨t, ht⟩ : ∃ t : Fin cfg1.N, t.val = 16 * (i 0).val + (i 1).val / 16 :=
    ⟨⟨16 * (i 0).val + (i 1).val / 16, by rw [hN]; omega⟩, rfl⟩
  obtain ⟨e20, e21, e22, e23, -⟩ := gate_index_facts t
  refine ⟨t, flush1_2 t, ?_⟩
  rw [mem_result_block]
  intro a
  match a with
  | ⟨0, _⟩ => show win1_2.index t (0 : Fin 4) * 1 ≤ (i 0).val ∧ (i 0).val < win1_2.index t (0 : Fin 4) * 1 + 1; omega
  | ⟨1, _⟩ => show win1_2.index t (1 : Fin 4) * 16 ≤ (i 1).val ∧ (i 1).val < win1_2.index t (1 : Fin 4) * 16 + 16; omega
  | ⟨2, _⟩ => show win1_2.index t (2 : Fin 4) * 256 ≤ (i 2).val ∧ (i 2).val < win1_2.index t (2 : Fin 4) * 256 + 256; omega
  | ⟨3, _⟩ => show win1_2.index t (3 : Fin 4) * 256 ≤ (i 3).val ∧ (i 3).val < win1_2.index t (3 : Fin 4) * 256 + 256; omega

/-! ## The result array -/

/-- Every position writes back its block of the gated image and the blocks cover the array: the result array ends
    holding the gated image. -/
theorem gate_final (c : Dev nD) : resultArr V c = gatedImage (img V c) (gateArr V c) :=
  (dat1 (F := Ideal) V c).arrAt_eq_of_cover 2 (gatedImage (img V c) (gateArr V c))
    (fun t _ => gate_written_eq V c t) result_covered

theorem gate_final_apply (c : Dev nD) (b : Fin 16) (h w ch : Fin 256) :
    resultArr V c (ix4 b h w ch) = img V c (ix4 b h w ch) * gateArr V c (ix4 b 0 0 ch) :=
  congrFun (gate_final V c) (ix4 b h w ch)

end Cert.KernelIdeal.Gate

end
-- ==== Proof.RefPool.lean ====
/-
  The reference's sum over the two image axes, read at an index over the extended reals: entry (b, ch) of the reduced
  array is the sum of the image's entries (b, h, w, ch) over all h and w.
-/
import proofs.«156691_j13735305412823_1_alg».proof.Proof.Gen.ReferenceIdeal.Read
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.ReferenceIdeal.RefValue

open Cert.ReferenceIdeal Cert.ReferenceIdeal.Gen

/-- Dropping the two image axes of the index (b, h, w, ch) leaves (b, ch). -/
theorem drop_ix4 (hr : (⟨4, ![16, 256, 256, 256]⟩ : Shape).ReducesTo [1, 2] ⟨2, ![16, 256]⟩)
    (b : Fin 16) (h w ch : Fin 256) : hr.drop (ix4 b h w ch) = ix2 b ch := by
  funext a
  match a with
  | ⟨0, _⟩ => exact Fin.ext (Shape.ReducesTo.drop_apply_val_of_eq hr (ix4 b h w ch) 0 0)
  | ⟨1, _⟩ => exact Fin.ext (Shape.ReducesTo.drop_apply_val_of_eq hr (ix4 b h w ch) 1 3)

/-- An index that drops to (b, ch) is (b, h, w, ch) for its own two image coordinates: its batch coordinate is b and
    its channel coordinate is ch, because those are the two coordinates the drop keeps. -/
theorem eq_ix4_of_drop (hr : (⟨4, ![16, 256, 256, 256]⟩ : Shape).ReducesTo [1, 2] ⟨2, ![16, 256]⟩)
    (i : (⟨4, ![16, 256, 256, 256]⟩ : Shape).Idx) (b : Fin 16) (ch : Fin 256) (hd : hr.drop i = ix2 b ch) :
    ix4 b (i 1) (i 2) ch = i := by
  have h0 : (i 0).val = b.val :=
    (Shape.ReducesTo.drop_apply_val_of_eq hr i 0 0).symm.trans (congrArg (fun j => (j 0).val) hd)
  have h3 : (i 3).val = ch.val :=
    (Shape.ReducesTo.drop_apply_val_of_eq hr i 1 3).symm.trans (congrArg (fun j => (j 1).val) hd)
  funext a
  match a with
  | ⟨0, _⟩ => exact Fin.ext h0.symm
  | ⟨1, _⟩ => rfl
  | ⟨2, _⟩ => rfl
  | ⟨3, _⟩ => exact Fin.ext h3.symm

/-- The entries that reduce to (b, ch), summed, are the double sum over the two image coordinates: the map
    (h, w) ↦ (b, h, w, ch) is a bijection from pairs of image coordinates onto the indices that drop to (b, ch),
    with inverse i ↦ (i 1, i 2). Only the commutative-monoid structure of the values is used. -/
theorem sum_filter_drop {M : Type*} [AddCommMonoid M]
    (hr : (⟨4, ![16, 256, 256, 256]⟩ : Shape).ReducesTo [1, 2] ⟨2, ![16, 256]⟩)
    (x : (⟨4, ![16, 256, 256, 256]⟩ : Shape).Idx → M) (b : Fin 16) (ch : Fin 256) :
    ∑ i ∈ Finset.univ.filter (fun i => hr.drop i = ix2 b ch), x i
      = ∑ h : Fin 256, ∑ w : Fin 256, x (ix4 b h w ch) := by
  rw [← Fintype.sum_prod_type' (fun h w : Fin 256 => x (ix4 b h w ch))]
  symm
  refine Finset.sum_nbij' (fun p : Fin 256 × Fin 256 => ix4 b p.1 p.2 ch) (fun i => (i 1, i 2)) ?_ ?_ ?_ ?_ ?_
  · intro p _
    exact Finset.mem_filter.mpr ⟨Finset.mem_univ _, drop_ix4 hr b p.1 p.2 ch⟩
  · intro i _
    exact Finset.mem_univ _
  · intro p _
    rfl
  · intro i hi
    exact eq_ix4_of_drop hr i b ch (Finset.mem_filter.mp hi).2
  · intro p _
    rfl

/-- The host's sum over the two image axes, read at (b, ch): the initial value plus the double sum of the operand
    over the image coordinates. -/
theorem hostReduceAdd_image (hr : (⟨4, ![16, 256, 256, 256]⟩ : Shape).ReducesTo [1, 2] ⟨2, ![16, 256]⟩)
    (x : (⟨4, ![16, 256, 256, 256]⟩ : Shape).Idx → EReal) (init : EReal) (b : Fin 16) (ch : Fin 256) :
    Ideal.hostReduceAdd hr x init (ix2 b ch) = init + ∑ h : Fin 256, ∑ w : Fin 256, x (ix4 b h w ch) := by
  unfold Ideal.hostReduceAdd
  rw [sum_filter_drop hr x b ch]

/-- The sum's initial value, the f32 pattern of zero, is the extended real zero. -/
theorem init_eq_zero (i : S_.Idx) : (Cert.ReferenceIdeal.Read.val_main_cst (F := Ideal) : S_.Idx → EReal) i = 0 := by
  unfold Cert.ReferenceIdeal.Read.val_main_cst
  rw [constant_apply]
  exact Ideal.ofBits_zero_f32

theorem reduce_apply (x : FVec Ideal S16x256x256x256 .f32) (b : Fin 16) (ch : Fin 256) :
    (Cert.ReferenceIdeal.Read.val_main_v0 (F := Ideal) x : S16x256.Idx → EReal) (ix2 b ch)
      = ∑ h : Fin 256, ∑ w : Fin 256, (x : S16x256x256x256.Idx → EReal) (ix4 b h w ch) := by
  unfold Cert.ReferenceIdeal.Read.val_main_v0
  show Ideal.hostReduceAdd reducesTo_S16x256x256x256_S16x256_d1_2 x
      ((Cert.ReferenceIdeal.Read.val_main_cst (F := Ideal) : S_.Idx → EReal) (Shape.Idx.first h_S_)) (ix2 b ch) = _
  rw [hostReduceAdd_image, init_eq_zero, zero_add]

end Cert.ReferenceIdeal.RefValue

end
-- ==== Proof.Consts.lean ====
/-
  The two float constants in which the programs differ, as the extended reals their patterns denote: the kernel's
  scale 2⁻¹⁶ and the reference's divisor 65536 = 2¹⁶. Dividing an extended real by 65536 is multiplying it by 2⁻¹⁶.
-/
import Idealize.ShloMosaic.PureOps.Ideal

noncomputable section

namespace Cert.Consts

open Idealize.ShloMosaic

/-- The pattern of +0.0 denotes 0. -/
theorem ofBits_zero : Ideal.ofBits .f32 0x00000000#32 = 0 := by
  simp [Ideal.ofBits, Ideal.ieee]

/-- The pattern 0x47800000 denotes 65536. -/
theorem ofBits_65536 : Ideal.ofBits .f32 0x47800000#32 = ((65536 : ℝ) : EReal) := by
  simp [Ideal.ofBits, Ideal.ieee, -EReal.coe_mul]; norm_num

/-- The pattern 0x37800000 denotes 1/65536. -/
theorem ofBits_inv65536 : Ideal.ofBits .f32 0x37800000#32 = ((1 / 65536 : ℝ) : EReal) := by
  simp [Ideal.ofBits, Ideal.ieee, -EReal.coe_mul]; norm_num

/-- A total times the kernel's scale is that total divided by the reference's divisor, for every extended real. -/
theorem scale_eq_div (s : EReal) :
    s * Ideal.ofBits .f32 0x37800000#32 = Ideal.div s (Ideal.ofBits .f32 0x47800000#32) := by
  rw [ofBits_65536, ofBits_inv65536, Ideal.div_coe (by norm_num : (65536 : ℝ) ≠ 0)]

end Cert.Consts

end
-- ==== Proof.Bridge.lean ====
/-
  The two programs compute the same array, over the extended reals. The kernel's mean — the pooled total times 2⁻¹⁶ —
  and the reference's — the sum over both image axes divided by 65536 — are the same function of the image: the
  totals are the same double sum, and dividing by 65536 is multiplying by 2⁻¹⁶ on every extended real. From the mean
  on both apply the same operations, kept as one function; and both multiply every image entry by the gate of its
  batch entry and channel.
-/
import proofs.«156691_j13735305412823_1_alg».proof.Proof.HostChain
import proofs.«156691_j13735305412823_1_alg».proof.Proof.PoolValue
import proofs.«156691_j13735305412823_1_alg».proof.Proof.GateValue
import proofs.«156691_j13735305412823_1_alg».proof.Proof.RefPool
import proofs.«156691_j13735305412823_1_alg».proof.Proof.Consts
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.ValueIdx

namespace Cert.KernelIdeal.Bridge

open Cert.KernelIdeal Cert.KernelIdeal.Gen Cert.KernelIdeal.Run Cert.KernelIdeal.Host

variable (m : (ℓ : Loc nD τ sig) → Buf (Elt Ideal) ℓ)

/-- The arguments as launched, at their literal types. -/
abbrev X (c : Dev nD) : FVec Ideal S16x256x256x256 .f32 := m ((c : Thread nD τ).loc main_arg0)
abbrev Wt0 (c : Dev nD) : FVec Ideal S256x64 .f32 := m ((c : Thread nD τ).loc main_arg1)
abbrev Wt1 (c : Dev nD) : FVec Ideal S64x256 .f32 := m ((c : Thread nD τ).loc main_arg2)
abbrev Wm (c : Dev nD) : FVec Ideal S256 .f32 := m ((c : Thread nD τ).loc main_arg3)

/-- The image reaches the gating region as launched. -/
theorem W6_image (c : Dev nD) : W6 m c (Proc.devRef .tc main_arg0) = X m c :=
  (W6_of m c main_arg0 (by decide) (by decide) (by decide) (by decide) (by decide)).trans
    ((W1_arr m c 0).trans (((Pool.dat0 (VV0 m) c).arrAt_in 0 rfl _).trans (Pool.A_eq0 (VV0 m) c 0)))

/-- What the pooling region leaves in its output array. -/
theorem W1_pooled (c : Dev nD) : W1 m c (Proc.devRef .tc main_v0) = Pool.pooledArr (VV0 m) c := W1_arr m c 1

/-- The reference's stages from its mean to its gate are the kernel's chain. -/
theorem ref_gate (x0 : FVec Ideal S16x256x256x256 .f32) (x1 : FVec Ideal S256x64 .f32) (x2 : FVec Ideal S64x256 .f32)
    (x3 : FVec Ideal S256 .f32) :
    Cert.ReferenceIdeal.Read.val_main_v21 (F := Ideal) x0 x1 x2 x3
      = gateOf (F := Ideal) (Cert.ReferenceIdeal.Read.val_main_v2 (F := Ideal) x0) x1 x2 x3 := rfl

/-- THE MEANS AGREE: per batch entry and channel, the pooled total times 2⁻¹⁶ is the two-axis sum divided by 65536. -/
theorem mean_eq (c : Dev nD) :
    meanOf (F := Ideal) (Pool.pooledArr (VV0 m) c) = Cert.ReferenceIdeal.Read.val_main_v2 (F := Ideal) (X m c) := by
  funext i
  obtain ⟨b, ch, rfl⟩ : ∃ (b : Fin 16) (ch : Fin 256), i = ix2 b ch := ⟨i 0, i 1, eq_ix2 i⟩
  rw [Cert.ReferenceIdeal.Read.val_main_v2_apply, Cert.ReferenceIdeal.RefValue.reduce_apply,
    Cert.ReferenceIdeal.Read.val_main_v1_apply, Cert.ReferenceIdeal.Read.val_main_cst_0_apply]
  unfold meanOf
  rw [mulf_apply, shapeCast_apply (Pool.pooledArr (VV0 m) c) shapeCasts_S16x1x1x256_S16x256 (ix2 b ch) (ix4 b 0 0 ch)
      (by rw [Shape.rowMajor_val_four, Shape.rowMajor_val_two]; simp),
    broadcastInDim_apply _ bcast_S_S16x256 _ (ix2 b ch) ix0 (fun a => a.elim0), Pool.pool_final_apply]
  exact Cert.Consts.scale_eq_div _

/-- THE RESULTS AGREE: what the gating region leaves in the result array is the reference's last stage of the
    arguments as launched. -/
theorem result_eq (c : Dev nD) :
    Gate.resultArr (VV6 m) c
      = Cert.ReferenceIdeal.Read.val_main_v24 (F := Ideal) (X m c) (Wt0 m c) (Wt1 m c) (Wm m c) := by
  funext i
  obtain ⟨b, h, w, ch, rfl⟩ : ∃ (b : Fin 16) (h w ch : Fin 256), i = ix4 b h w ch := ⟨i 0, i 1, i 2, i 3, eq_ix4 i⟩
  have hi23 : Cert.ReferenceIdeal.Read.idx_main_v23 (ix4 b h w ch) = ix4 b 0 0 ch :=
    funext fun a => Fin.ext (by match a with | ⟨0, _⟩ => rfl | ⟨1, _⟩ => rfl | ⟨2, _⟩ => rfl | ⟨3, _⟩ => rfl)
  have hi22 : Cert.ReferenceIdeal.Read.idx_main_v22 (ix4 b 0 0 ch) = ix2 b ch :=
    funext fun a => Fin.ext (by match a with | ⟨0, _⟩ => rfl | ⟨1, _⟩ => rfl)
  rw [Gate.gate_final_apply, Cert.ReferenceIdeal.Read.val_main_v24_apply, Cert.ReferenceIdeal.Read.val_main_v23_apply, hi23,
    Cert.ReferenceIdeal.Read.val_main_v22_apply, hi22, ref_gate, ← mean_eq m c]
  have hx : Gate.img (VV6 m) c = X m c := W6_image m c
  have hg : Gate.gateArr (VV6 m) c
      = shapeCast S16x1x1x256 (gateOf (F := Ideal) (meanOf (Pool.pooledArr (VV0 m) c)) (Wt0 m c) (Wt1 m c) (Wm m c)) shapeCasts_S16x256_S16x1x1x256 :=
    (gate_eq m c).trans (by rw [W1_pooled])
  rw [hx, hg, shapeCast_apply _ shapeCasts_S16x256_S16x1x1x256 (ix4 b 0 0 ch) (ix2 b ch)
      (by rw [Shape.rowMajor_val_four, Shape.rowMajor_val_two]; simp)]
  rfl

end Cert.KernelIdeal.Bridge

end
-- ==== Proof.lean ====
/-
  A squeeze-and-excitation block: the image f32[16,256,256,256] is averaged over its two spatial axes per batch entry and
  channel, the [16,256] means go through two small matrix products with a leaky rectifier between them, a learned
  per-channel multiplier and the logistic function, and every image entry is multiplied by the resulting gate of its
  batch entry and channel.

  The kernel computes the spatial totals in a pipelined region that accumulates, tile of 32 rows by tile, a row of 256
  channel totals per batch entry, scales them by 2⁻¹⁶ on the host, and applies the gate in a second pipelined region;
  the reference sums over both axes at once and divides by 65536. Over the extended reals the two are the same function:
  the totals are the same double sum regrouped (addition is commutative and associative there, infinities included),
  dividing by 65536 is multiplying by 2⁻¹⁶ on every extended real, everything between the mean and the gate is the same
  sequence of operations on the same constants, and the last product is entry by entry. No step uses finiteness.

  Frames: each of the kernel's two programs runs as its two regions and the host operations between them, every region's
  grid point keeping the image blocks it reads and writing only its own output array (the pooling region carrying its
  row of totals from one grid point to the next), so the four arguments end as launched; the reference is a straight
  line of host operations. The idealization rewrote nothing, so its conjunct is trivial.
-/
import proofs.«156691_j13735305412823_1_alg».proof.Defs
import proofs.«156691_j13735305412823_1_alg».proof.Proof.Gen.Kernel
import proofs.«156691_j13735305412823_1_alg».proof.Proof.Gen.KernelIdeal
import proofs.«156691_j13735305412823_1_alg».proof.Proof.Gen.ReferenceIdeal
import proofs.«156691_j13735305412823_1_alg».proof.Proof.Gen.Pre_finite_inputs
import proofs.«156691_j13735305412823_1_alg».proof.Proof.Gen.ReferenceIdeal.Run
import proofs.«156691_j13735305412823_1_alg».proof.Proof.Gen.ReferenceIdeal.Read
import proofs.«156691_j13735305412823_1_alg».proof.Proof.Bits.Run
import proofs.«156691_j13735305412823_1_alg».proof.Proof.Run
import proofs.«156691_j13735305412823_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Run.frame (F := Bits) m ρ

/-- The idealized kernel runs and keeps its arguments. -/
theorem frame_kernel_ideal : Cert.frame_KernelIdeal := fun m ρ _ => Cert.KernelIdeal.Run.frame (F := Ideal) m ρ

/-- The reference runs and keeps its arguments. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result array: the kernel's is what its
    gating region leaves, the reference's its last stage of the same arguments, and those agree index by index. -/
theorem algebraic : Cert.algebraic_KernelIdeal_ReferenceIdeal := by
  intro m ρ m' ρ' _ hagree
  refine ⟨fun c => (Cert.KernelIdeal.Gate.dat1 (F := Ideal) (Cert.KernelIdeal.Run.VV6 m) c).arrAt 2 Cert.KernelIdeal.cfg1.N,
    Cert.KernelIdeal.Run.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2, Cert.ReferenceIdeal.Read.val_main_v24_eq]
  exact (Cert.KernelIdeal.Bridge.result_eq m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
